-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S128x3 : Shape := ⟨2, ![128, 3]⟩
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S128x3 : S_.BroadcastsInDim S128x3 (![] : Fin 0 → Fin S128x3.rank)
  reducesTo_S128x3_S_d0_1 : S128x3.ReducesTo [0, 1] S_
  bcast_S_S100000x512 : S_.BroadcastsInDim S100000x512 (![] : Fin 0 → Fin S100000x512.rank)
  reducesTo_S100000x512_S_d0_1 : S100000x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S512x256 .f32) (main_arg6 : FVec F S256 .f32) (main_arg7 : FVec F S256x1 .f32) (main_arg8 : FVec F S1 .f32) (main_v13 : IVec S_ 1) (main_v16 : IVec S100000x3 1) : IVec S_ 1 :=
  let main_c_5 : IVec S_ 1 := constantI S_ 1 1#1
  let main_v17 : IVec S_ 1 := (fun x v => Host.reduce IntOp.andi x v reducesTo_S100000x3_S_d0_1 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1 .f32 := Host.absf main_arg7
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg8 main_v33

def fn {F : FTy → Type} [FloatOps F] (main_arg0 : FVec F S100000x3 .f32) (main_arg1 : FVec F S128x3 .f32) (main_arg2 : FVec F S100000x512 .f32) (main_arg3 : FVec F S100000x3 .f32) (main_arg4 : IVec S100000 32) (main_arg5 : FVec F S512x256 .f32) (main_arg6 : FVec F S256 .f32) (main_arg7 : FVec F S256x1 .f32) (main_arg8 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S100000x512 .f32 := Host.absf main_arg2
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_v14 : FVec F S100000x3 .f32 := Host.absf main_arg3
  let main_cst_4 : FVec F S_ .f32 := constant S_ .f32 0x7F800000#32
  let main_v15 : FVec F S100000x3 .f32 := broadcastInDim S100000x3 ![] bcast_S_S100000x3 main_cst_4
  let main_v16 : IVec S100000x3 1 := cmpf .olt main_v14 main_v15
  fn_part1 (F := F) main_arg5 main_arg6 main_arg7 main_arg8 main_v13 main_v16
-- ==== Kernel.lean ====
abbrev S100000x3 : Shape := ⟨2, ![100000, 3]⟩
abbrev S128x3 : Shape := ⟨2, ![128, 3]⟩
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S100000x1 : Shape := ⟨2, ![100000, 1]⟩
abbrev S1x256 : Shape := ⟨2, ![1, 256]⟩
abbrev S1x1 : Shape := ⟨2, ![1, 1]⟩
abbrev S2x128x5 : Shape := ⟨3, ![2, 128, 5]⟩
abbrev S2000x1 : Shape := ⟨2, ![2000, 1]⟩
abbrev S2000x3 : Shape := ⟨2, ![2000, 3]⟩
abbrev S2000x512 : Shape := ⟨2, ![2000, 512]⟩
abbrev S1x128x5 : Shape := ⟨3, ![1, 128, 5]⟩
abbrev S128x5 : Shape := ⟨2, ![128, 5]⟩
abbrev S2000x128 : Shape := ⟨2, ![2000, 128]⟩
abbrev S2000x256 : Shape := ⟨2, ![2000, 256]⟩
abbrev S2000 : Shape := ⟨1, ![2000]⟩
abbrev S2000x5 : Shape := ⟨2, ![2000, 5]⟩
abbrev S_ : Shape := ⟨0, ![]⟩
abbrev S128x1 : Shape := ⟨2, ![128, 1]⟩
abbrev S128 : Shape := ⟨1, ![128]⟩

abbrev nBuf : Space → Nat
  | .hbm => 34
  | .vmem => 12
  | .smem => 0
  | _ => 0

abbrev bufTy : (tb : Table) → Fin (tcTables nBuf tb) → BufTy
  | .hbm, ⟨0, _⟩ => ⟨S100000x3, .f32⟩
  | .hbm, ⟨1, _⟩ => ⟨S128x3, .f32⟩
  | .hbm, ⟨2, _⟩ => ⟨S100000x512, .f32⟩
  | .hbm, ⟨3, _⟩ => ⟨S100000x3, .f32⟩
  | .hbm, ⟨4, _⟩ => ⟨S100000, .i32⟩
  | .hbm, ⟨5, _⟩ => ⟨S512x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S100000x1, .i32⟩
  | .hbm, ⟨10, _⟩ => ⟨S1x256, .f32⟩
  | .hbm, ⟨11, _⟩ => ⟨S1x1, .f32⟩
  | .hbm, ⟨12, _⟩ => ⟨S512x256, .bf16⟩
  | .hbm, ⟨13, _⟩ => ⟨S256x1, .bf16⟩
  | .hbm, ⟨14, _⟩ => ⟨S2x128x5, .f32⟩
  | .hbm, ⟨15, _⟩ => ⟨S_, .f32⟩
  | .hbm, ⟨16, _⟩ => ⟨S128x5, .f32⟩
  | .hbm, ⟨17, _⟩ => ⟨S128x1, .f32⟩
  | .hbm, ⟨18, _⟩ => ⟨S128x3, .f32⟩
  | .hbm, ⟨19, _⟩ => ⟨S128x1, .f32⟩
  | .hbm, ⟨20, _⟩ => ⟨S128x3, .f32⟩
  | .hbm, ⟨21, _⟩ => ⟨S_, .f32⟩
  | .hbm, ⟨22, _⟩ => ⟨S128, .f32⟩
  | .hbm, ⟨23, _⟩ => ⟨S128x1, .f32⟩
  | .hbm, ⟨24, _⟩ => ⟨S128x3, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S128x1, .f32⟩
  | .hbm, ⟨32, _⟩ => ⟨S128x1, .f32⟩
  | .hbm, ⟨33, _⟩ => ⟨S128x1, .f32⟩
  | .local _ .vmem, ⟨0, _⟩ => ⟨S2000x1, .i32⟩
  | .local _ .vmem, ⟨1, _⟩ => ⟨S2000x1, .i32⟩
  | .local _ .vmem, ⟨2, _⟩ => ⟨S2000x3, .f32⟩
  | .local _ .vmem, ⟨3, _⟩ => ⟨S2000x3, .f32⟩
  | .local _ .vmem, ⟨4, _⟩ => ⟨S2000x512, .f32⟩
  | .local _ .vmem, ⟨5, _⟩ => ⟨S2000x512, .f32⟩
  | .local _ .vmem, ⟨6, _⟩ => ⟨S512x256, .bf16⟩
  | .local _ .vmem, ⟨7, _⟩ => ⟨S1x256, .f32⟩
  | .local _ .vmem, ⟨8, _⟩ => ⟨S256x1, .bf16⟩
  | .local _ .vmem, ⟨9, _⟩ => ⟨S1x1, .f32⟩
  | .local _ .vmem, ⟨10, _⟩ => ⟨S1x128x5, .f32⟩
  | .local _ .vmem, ⟨11, _⟩ => ⟨S1x128x5, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S100000_S100000x1 : S100000.ShapeCasts S100000x1
  shapeCasts_S256_S1x256 : S256.ShapeCasts S1x256
  shapeCasts_S1_S1x1 : S1.ShapeCasts S1x1
  bitsLt_bf16_f32 : FTy.bits .bf16 < FTy.bits .f32
  inb_S1x128x5_S1x128x5_0_0_0 : ∀ a, (![0, 0, 0] : Fin 3 → Nat) a + S1x128x5.size a ≤ S1x128x5.size a
  h_S1x128x5 : 0 < S1x128x5.numel
  shapeCasts_S1x128x5_S128x5 : S1x128x5.ShapeCasts S128x5
  shapeCasts_S128x5_S1x128x5 : S128x5.ShapeCasts S1x128x5
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x3_S2000x3_0_0 : ∀ a, (![0, 0] : Fin 2 → Nat) a + S2000x3.size a ≤ S2000x3.size a
  h_S2000x3 : 0 < S2000x3.numel
  reduces_S2000x3_S2000 : S2000x3.Reduces [1] S2000
  shapeCasts_S2000_S2000x1 : S2000.ShapeCasts S2000x1
  concatenates_S2000x1_S2000x3_S2000x1_S2000x5_d1 : Shape.Concatenates [S2000x1, S2000x3, S2000x1] S2000x5 1
  broadcasts_S2000x1_S2000x5 : S2000x1.Broadcasts S2000x5
  reducesTo_S2x128x5_S128x5_d0 : S2x128x5.ReducesTo [0] S128x5
  h_S_ : 0 < S_.numel
  slices_S128x5_S128x1_0_0 : S128x5.Slices ![0, 0] S128x1
  slices_S128x5_S128x3_0_1 : S128x5.Slices ![0, 1] S128x3
  slices_S128x5_S128x1_0_4 : S128x5.Slices ![0, 4] S128x1
  reducesTo_S128x3_S128_d1 : S128x3.ReducesTo [1] S128
  bcast_S128_S128x1_0 : S128.BroadcastsInDim S128x1 (![0] : Fin 1 → Fin S128x1.rank)
  bcast_S_S128x1 : S_.BroadcastsInDim S128x1 (![] : Fin 0 → Fin S128x1.rank)
  dot_S2000x512_S512x256_S2000x256_1_0_0_1_n_n_wf : DotDims.WF S2000x512 S512x256 S2000x256 [1] [0] [0] [1] [] []
  dot_S2000x256_S256x1_S2000x1_1_0_0_1_n_n_wf : DotDims.WF S2000x256 S256x1 S2000x1 [1] [0] [0] [1] [] []
  dot_S2000x128_S2000x5_S128x5_0_0_1_1_n_n_wf : DotDims.WF S2000x128 S2000x5 S128x5 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .i32 = 32 ∨ (Rect.block (s := S100000x1) S2000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S100000x3.size a
  hwx0_1 : ∀ i : grid0.Coords, EltTy.bits .f32 = 32 ∨ (Rect.block (s := S100000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S100000x512.size a
  hwx0_2 : ∀ i : grid0.Coords, EltTy.bits .f32 = 32 ∨ (Rect.block (s := S100000x512) S2000x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .bf16 = 32 ∨ (Rect.block (s := S256x1) S256x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x5.size a ≤ S2x128x5.size a
  hwx0_7 : ∀ i : grid0.Coords, EltTy.bits .f32 = 32 ∨ (Rect.block (s := S2x128x5) S1x128x5.size (cc0_transform_7 i) (hinb0_7 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def dot_S2000x128_S2000x5_S128x5_0_0_1_1_n_n : DotDims S2000x128 S2000x5 S128x5 where
  lhsContracting := [0]
  rhsContracting := [0]
  lhsNonContracting := [1]
  rhsNonContracting := [1]
  lhsBatch := []
  rhsBatch := []
  wf := dot_S2000x128_S2000x5_S128x5_0_0_1_1_n_n_wf

abbrev win0_0 : Pipeline.Window sig grid0 :=
  Pipeline.Window.ofSpec (Memref.whole main_v0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128x5.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x3 : Shape := ⟨2, ![100000, 3]⟩
abbrev S128x3 : Shape := ⟨2, ![128, 3]⟩
abbrev S100000x512 : Shape := ⟨2, ![100000, 512]⟩
abbrev S100000 : Shape := ⟨1, ![100000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S100000x1 : Shape := ⟨2, ![100000, 1]⟩
abbrev S100000x256 : Shape := ⟨2, ![100000, 256]⟩
abbrev S1x256 : Shape := ⟨2, ![1, 256]⟩
abbrev S1x1 : Shape := ⟨2, ![1, 1]⟩
abbrev S128x1 : Shape := ⟨2, ![128, 1]⟩

abbrev nBuf : Space → Nat
  | .hbm => 45
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S128x3, .f32⟩
  | .hbm, ⟨2, _⟩ => ⟨S100000x512, .f32⟩
  | .hbm, ⟨3, _⟩ => ⟨S100000x3, .f32⟩
  | .hbm, ⟨4, _⟩ => ⟨S100000, .i32⟩
  | .hbm, ⟨5, _⟩ => ⟨S512x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S100000x3, .f32⟩
  | .hbm, ⟨18, _⟩ => ⟨S100000x3, .f32⟩
  | .hbm, ⟨19, _⟩ => ⟨S100000x256, .f32⟩
  | .hbm, ⟨20, _⟩ => ⟨S1x256, .f32⟩
  | .hbm, ⟨21, _⟩ => ⟨S100000x256, .f32⟩
  | .hbm, ⟨22, _⟩ => ⟨S100000x256, .f32⟩
  | .hbm, ⟨23, _⟩ => ⟨S100000x256, .f32⟩
  | .hbm, ⟨24, _⟩ => ⟨S100000x256, .f32⟩
  | .hbm, ⟨25, _⟩ => ⟨S_, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S100000x256, .f32⟩
  | .hbm, ⟨30, _⟩ => ⟨S100000x256, .f32⟩
  | .hbm, ⟨31, _⟩ => ⟨S100000x256, .f32⟩
  | .hbm, ⟨32, _⟩ => ⟨S100000x1, .f32⟩
  | .hbm, ⟨33, _⟩ => ⟨S1x1, .f32⟩
  | .hbm, ⟨34, _⟩ => ⟨S100000x1, .f32⟩
  | .hbm, ⟨35, _⟩ => ⟨S100000x1, .f32⟩
  | .hbm, ⟨36, _⟩ => ⟨S100000x3, .f32⟩
  | .hbm, ⟨37, _⟩ => ⟨S_, .f32⟩
  | .hbm, ⟨38, _⟩ => ⟨S100000, .f32⟩
  | .hbm, ⟨39, _⟩ => ⟨S100000x1, .f32⟩
  | .hbm, ⟨40, _⟩ => ⟨S100000x1, .f32⟩
  | .hbm, ⟨41, _⟩ => ⟨S_, .f32⟩
  | .hbm, ⟨42, _⟩ => ⟨S128x1, .f32⟩
  | .hbm, ⟨43, _⟩ => ⟨S100000x1, .i32⟩
  | .hbm, ⟨44, _⟩ => ⟨S128x1, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x3_S100000_d1 : S100000x3.ReducesTo [1] S100000
  h_S_ : 0 < S_.numel
  bcast_S_S128x1 : S_.BroadcastsInDim S128x1 (![] : Fin 0 → Fin S128x1.rank)
  gather_S128x3_S100000x1_S100000x3_1_0_n_n_0_1_13_wf : GatherDims.WF S128x3 S100000x1 S100000x3 [1] [0] [] [0] [] 1 ![1, 3]
  dot_S100000x512_S512x256_S100000x256_1_0_0_1_n_n_wf : DotDims.WF S100000x512 S512x256 S100000x256 [1] [0] [0] [1] [] []
  dot_S100000x256_S256x1_S100000x1_1_0_0_1_n_n_wf : DotDims.WF S100000x256 S256x1 S100000x1 [1] [0] [0] [1] [] []
  scatter_S128x1_S100000x1_S100000x1_1_0_0_1_wf : ScatterDims.WF S128x1 S100000x1 S100000x1 [1] [0] [0] 1

variable [Facts₀]

def gather_S128x3_S100000x1_S100000x3_1_0_n_n_0_1_13 : GatherDims S128x3 S100000x1 S100000x3 where
  offsetDims := [1]
  collapsedSliceDims := [0]
  operandBatchingDims := []
  startIndicesBatchingDims := []
  startIndexMap := [0]
  indexVectorDim := 1
  sliceSizes := ![1, 3]
  wf := gather_S128x3_S100000x1_S100000x3_1_0_n_n_0_1_13_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf

class Facts : Prop extends Facts₀ where

variable [Facts]
-- ==== Proof.KernelPieces.lean ====
/-
  What one grid point's body leaves in the output block, as a value.

  The body loads the tile's graph words, positions and features and the weights, forms the one-hot matrix of the
  graph words and the moment rows, and stores into the output block the block it found there plus the product of the
  two contracted over the tile's rows.  At the first tile of a core it first stores zeros and reads them back, so the
  block it adds to is the zero block; at every other tile it is what the tile before left.
-/
import proofs.«430685_j27625229648413_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A tile that is not the first of its core: the block found, plus this tile's one-hot product. -/
theorem out_later (c : Dev nD) (i : grid0.Coords) (arg2 : Memref sig .tc .vmem S2000x1 .i32) (harg2 : arg2.IsWhole) (arg3 : Memref sig .tc .vmem S2000x3 .f32) (harg3 : arg3.IsWhole) (arg4 : Memref sig .tc .vmem S2000x512 .f32) (harg4 : arg4.IsWhole) (arg5 : Memref sig .tc .vmem S512x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x128x5 .f32) (harg9 : arg9.IsWhole) (hc : ¬cond0_0 i)
    (x0 : Vec F S2000x1 .i32) (x1 : Vec F S2000x3 .f32) (x2 : Vec F S2000x512 .f32) (x3 : Vec F S512x256 .bf16) (x4 : Vec F S1x256 .f32) (x5 : Vec F S256x1 .bf16) (x6 : Vec F S1x1 .f32) (xo : Vec F S1x128x5 .f32) :
    out0_B_7 c i arg2 harg2 arg3 harg3 arg4 harg4 arg5 harg5 arg6 harg6 arg7 harg7 arg8 harg8 arg9 harg9 hc x0 x1 x2 x3 x4 x5 x6 xo
      = k0_pay1 (k0_pay3 x0) (k0_pay4 x2 x3 x4 x5 x6 x1) xo := by
  unfold out0_B_7
  rw [View.read_writes_eq_canon _ _ _ (cover0_B_7 c i arg2 harg2 arg3 harg3 arg4 harg4 arg5 harg5 arg6 harg6 arg7 harg7 arg8 harg8 arg9 harg9 hc x0 x1 x2 x3 x4 x5 x6 xo)]
  unfold kernelRun0_B
  dsimp only
  sl_unfold_words
  rw [View.canon_unit_zero (S := S1x128x5) hz3]
  simp only [View.readAt_eq_ld, harg2.read_unread, harg3.read_unread, harg4.read_unread, harg5.read_unread, harg6.read_unread,
    harg7.read_unread, harg8.read_unread, harg9.read_unread, View.ld_unit_zero (S := S2000x1) hz2, View.ld_unit_zero (S := S2000x3) hz2,
    View.ld_unit_zero (S := S2000x512) hz2, View.ld_unit_zero (S := S512x256) hz2, View.ld_unit_zero (S := S1x256) hz2,
    View.ld_unit_zero (S := S256x1) hz2, View.ld_unit_zero (S := S1x1) hz2, View.ld_unit_zero (S := S1x128x5) hz3]

/-- The first tile of a core: the zero block, plus this tile's one-hot product. -/
theorem out_first (c : Dev nD) (i : grid0.Coords) (arg2 : Memref sig .tc .vmem S2000x1 .i32) (harg2 : arg2.IsWhole) (arg3 : Memref sig .tc .vmem S2000x3 .f32) (harg3 : arg3.IsWhole) (arg4 : Memref sig .tc .vmem S2000x512 .f32) (harg4 : arg4.IsWhole) (arg5 : Memref sig .tc .vmem S512x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x128x5 .f32) (harg9 : arg9.IsWhole) (hc : cond0_0 i)
    (x0 : Vec F S2000x1 .i32) (x1 : Vec F S2000x3 .f32) (x2 : Vec F S2000x512 .f32) (x3 : Vec F S512x256 .bf16) (x4 : Vec F S1x256 .f32) (x5 : Vec F S256x1 .bf16) (x6 : Vec F S1x1 .f32) :
    out0_A_7 c i arg2 harg2 arg3 harg3 arg4 harg4 arg5 harg5 arg6 harg6 arg7 harg7 arg8 harg8 arg9 harg9 hc x0 x1 x2 x3 x4 x5 x6
      = k0_pay1 (k0_pay3 x0) (k0_pay4 x2 x3 x4 x5 x6 x1) (k0_pay2 (F := F)) := by
  unfold out0_A_7
  rw [View.read_writes_eq_canon _ _ _ (cover0_A_7 c i arg2 harg2 arg3 harg3 arg4 harg4 arg5 harg5 arg6 harg6 arg7 harg7 arg8 harg8 arg9 harg9 hc x0 x1 x2 x3 x4 x5 x6)]
  unfold kernelRun0_A
  dsimp only
  sl_unfold_words
  rw [View.canon_cons_unit_zero (S := S1x128x5) hz3, View.readCov_unit_zero (S := S1x128x5) _ hz3]
  simp only [View.readAt_eq_ld, harg2.read_unread, harg3.read_unread, harg4.read_unread, harg5.read_unread, harg6.read_unread,
    harg7.read_unread, harg8.read_unread, harg9.read_unread, View.ld_unit_zero (S := S2000x1) hz2, View.ld_unit_zero (S := S2000x3) hz2,
    View.ld_unit_zero (S := S2000x512) hz2, View.ld_unit_zero (S := S512x256) hz2, View.ld_unit_zero (S := S1x256) hz2,
    View.ld_unit_zero (S := S256x1) hz2, View.ld_unit_zero (S := S1x1) hz2, View.ld_unit_zero (S := S1x128x5) hz3]

end Cert.KernelIdeal.Pieces

end
-- ==== Proof.Moments.lean ====
/-
  The per-graph second moment of the charge about the graph's mass centre, and the sums it is assembled from.

  A node i has a charge q i (a two-layer network on its feature row), a position p i in R^3 and a graph word g i;
  a graph b has a mass centre mc b.  One side sums, over the nodes of graph b, q i times the squared distance from
  p i to the mass centre.  The other side first sums, over the same nodes, the five moments
  q i * (1, p i, |p i|^2), tile by tile of 2000 nodes, and then combines them with the mass centre:
  |p - c|^2 = |p|^2 - 2 c.p + |c|^2.  Everything is stated over plain index functions, so that the same definitions
  serve a block of 2000 rows and the whole array of 100000.
-/
import Idealize.ShloMosaic.PureOps.Ideal
import Idealize.ShloMosaic.Lib.ValueIdx

noncomputable section

namespace Cert.Moments

open Idealize.ShloMosaic Idealize.ShloMosaic.ValueIdx
open scoped BigOperators

/-- x times the logistic function of x. -/
def silu (x : EReal) : EReal := x * Ideal.logistic x

/-- The charge of one node from its feature row: a hidden layer of 256 units, each the silu of an affine form of the
    512 features, then an affine form of the hidden layer. -/
def chargeRow (x : Fin 512 → EReal) (w1 : Fin 512 → Fin 256 → EReal) (b1 : Fin 256 → EReal) (w2 : Fin 256 → EReal)
    (b2 : EReal) : EReal :=
  (∑ h : Fin 256, silu ((∑ f : Fin 512, x f * w1 f h) + b1 h) * w2 h) + b2

/-- The five moment features of a position: 1, its three coordinates, its squared norm. -/
def featRow (p : Fin 3 → EReal) (k : Fin 5) : EReal :=
  match k with
  | ⟨0, _⟩ => 1
  | ⟨1, _⟩ => p 0
  | ⟨2, _⟩ => p 1
  | ⟨3, _⟩ => p 2
  | ⟨4, _⟩ => ∑ d : Fin 3, p d * p d

/-- The squared distance between two points of R^3. -/
def dist2 (p c : Fin 3 → EReal) : EReal := ∑ d : Fin 3, (p d - c d) * (p d - c d)

/-- Whether a graph word names graph b, as 1 or 0. -/
def member (w : BitVec 32) (b : Fin 128) : EReal := if w = BitVec.ofNat 32 b.val then 1 else 0

/-- Moment k of graph b: the sum over its nodes of the charge times feature k. -/
def moment (q : Fin 100000 → EReal) (p : Fin 100000 → Fin 3 → EReal) (g : Fin 100000 → BitVec 32) (b : Fin 128)
    (k : Fin 5) : EReal :=
  ∑ i : Fin 100000, member (g i) b * (q i * featRow (p i) k)

/-- Row r of tile n, as a node (tiles are 2000 consecutive nodes; n below 50 is what is used). -/
def node (n : ℕ) (r : Fin 2000) : Fin 100000 := ⟨(n * 2000 + r.val) % 100000, Nat.mod_lt _ (by norm_num)⟩

/-- Tile n's share of moment k of graph b. -/
def tileMoment (q : Fin 100000 → EReal) (p : Fin 100000 → Fin 3 → EReal) (g : Fin 100000 → BitVec 32) (n : ℕ)
    (b : Fin 128) (k : Fin 5) : EReal :=
  ∑ r : Fin 2000, member (g (node n r)) b * (q (node n r) * featRow (p (node n r)) k)

/-- The moments combined with the mass centre: M4 - 2 (c . (M1, M2, M3)) + |c|^2 M0. -/
def combine (M : Fin 5 → EReal) (c : Fin 3 → EReal) : EReal :=
  (M 4 - 2 * ∑ d : Fin 3, c d * M ⟨d.val + 1, by omega⟩) + (∑ d : Fin 3, c d * c d) * M 0

/-- The sum, over the nodes whose graph word read as a signed integer is b, of the charge times the squared distance
    to the mass centre of the row the node looks up. -/
def secondMoment (q : Fin 100000 → EReal) (p : Fin 100000 → Fin 3 → EReal) (g : Fin 100000 → BitVec 32)
    (mc : Fin 128 → Fin 3 → EReal) (row : Fin 100000 → Fin 128) (b : Fin 128) : EReal :=
  ∑ i : Fin 100000, if (g i).toInt = (b.val : ℤ) then q i * dist2 (p i) (mc (row i)) else 0

/-- A value is an ordinary real number (neither infinity). -/
def IsReal (x : EReal) : Prop := ∃ r : ℝ, x = (r : EReal)

/-! ## The same quantities read off the arrays -/

/-- Node i's charge: the network on row i of the features, with the two weight matrices and the two biases. -/
def chargeOf (feat : FVec Ideal ⟨2, ![100000, 512]⟩ .f32) (w1 : FVec Ideal ⟨2, ![512, 256]⟩ .f32)
    (b1 : FVec Ideal ⟨1, ![256]⟩ .f32) (w2 : FVec Ideal ⟨2, ![256, 1]⟩ .f32) (b2 : FVec Ideal ⟨1, ![1]⟩ .f32)
    (i : Fin 100000) : EReal :=
  chargeRow (fun f => feat (ix2 i f)) (fun f h => w1 (ix2 f h)) (fun h => b1 (ix1 h)) (fun h => w2 (ix2 h 0)) (b2 (ix1 0))

/-- Node i's position. -/
def posOf (pos : FVec Ideal ⟨2, ![100000, 3]⟩ .f32) (i : Fin 100000) (d : Fin 3) : EReal := pos (ix2 i d)

/-- Node i's graph word. -/
def wordOf (gi : IVec ⟨1, ![100000]⟩ 32) (i : Fin 100000) : BitVec 32 := gi (ix1 i)

/-- Graph b's mass centre. -/
def centreOf (mc : FVec Ideal ⟨2, ![128, 3]⟩ .f32) (b : Fin 128) (d : Fin 3) : EReal := mc (ix2 b d)

/-- The row of the mass-centre table a graph word looks up: a negative word has 128 added, and the result, read
    signed, is clamped into [0, 127]. -/
def lookupRow (w : BitVec 32) : Fin 128 :=
  ⟨min (if w.toInt < 0 then w + 128#32 else w).toInt.toNat 127, by omega⟩

/-- A tile's share of moment k of graph b, from the tile's own blocks: 2000 graph words, positions and feature rows,
    and the whole weight matrices and biases (the biases as a 1 x 256 row and a 1 x 1 entry). -/
def tileAdd (gi : IVec ⟨2, ![2000, 1]⟩ 32) (pos : FVec Ideal ⟨2, ![2000, 3]⟩ .f32)
    (feat : FVec Ideal ⟨2, ![2000, 512]⟩ .f32) (w1 : FVec Ideal ⟨2, ![512, 256]⟩ .bf16)
    (b1 : FVec Ideal ⟨2, ![1, 256]⟩ .f32) (w2 : FVec Ideal ⟨2, ![256, 1]⟩ .bf16) (b2 : FVec Ideal ⟨2, ![1, 1]⟩ .f32)
    (b : Fin 128) (k : Fin 5) : EReal :=
  ∑ r : Fin 2000, member (gi (ix2 r 0)) b *
    (chargeRow (fun f => feat (ix2 r f)) (fun f h => w1 (ix2 f h)) (fun h => b1 (ix2 0 h)) (fun h => w2 (ix2 h 0))
        (b2 (ix2 0 0)) * featRow (fun d => pos (ix2 r d)) k)

/-- THE RESULT both programs end with: entry (b, 0) is graph b's second moment of the charge about its mass centre. -/
def result (pos : FVec Ideal ⟨2, ![100000, 3]⟩ .f32) (mc : FVec Ideal ⟨2, ![128, 3]⟩ .f32)
    (feat : FVec Ideal ⟨2, ![100000, 512]⟩ .f32) (gi : IVec ⟨1, ![100000]⟩ 32) (w1 : FVec Ideal ⟨2, ![512, 256]⟩ .f32)
    (b1 : FVec Ideal ⟨1, ![256]⟩ .f32) (w2 : FVec Ideal ⟨2, ![256, 1]⟩ .f32) (b2 : FVec Ideal ⟨1, ![1]⟩ .f32) :
    FVec Ideal ⟨2, ![128, 1]⟩ .f32 :=
  fun j => secondMoment (chargeOf feat w1 b1 w2 b2) (posOf pos) (wordOf gi) (centreOf mc)
    (fun i => lookupRow (wordOf gi i)) (j 0)

end Cert.Moments

end
-- ==== Proof.KernelAcc.lean ====
/-
  What the output block holds after each grid point.

  The fifty points are two runs of twenty-five: point n works on tile n, and a core's run starts at a multiple of 25.
  The first point of a run leaves the zero block plus its tile's addend; every later point leaves what the point before
  left plus its own tile's addend.  So after point n entry (b, k) of the block is the sum of the addends of the tiles
  from the run's first, 25 (n / 25), up to n — by induction on the point.
-/
import proofs.«430685_j27625229648413_2_alg».proof.Proof.KernelPieces
import proofs.«430685_j27625229648413_2_alg».proof.Proof.Moments
import Idealize.ShloMosaic.Lib.ValueIdx

set_option maxRecDepth 16384

noncomputable section

namespace Cert.KernelIdeal.Acc

open Cert.KernelIdeal Cert.KernelIdeal.Gen Cert.KernelIdeal.Pieces Cert.Moments
open Idealize.ShloMosaic Idealize.ShloMosaic.TcCoe Idealize.ShloMosaic.ValueIdx Idealize.SL.Sem
open scoped BigOperators

variable (m : (ℓ : Loc nD τ sig) → Buf (Elt Ideal) ℓ)

/-! ## The blocks a point reads, each named at its literal type -/

/-- Tile t's graph words. -/
abbrev wordBlk (c : Dev nD) (t : Fin cfg0.N) : Vec Ideal S2000x1 .i32 := iblk m c 0 t
/-- Tile t's positions. -/
abbrev posBlk (c : Dev nD) (t : Fin cfg0.N) : Vec Ideal S2000x3 .f32 := iblk m c 1 t
/-- Tile t's feature rows. -/
abbrev featBlk (c : Dev nD) (t : Fin cfg0.N) : Vec Ideal S2000x512 .f32 := iblk m c 2 t
/-- The first weight matrix (the same whole block at every point). -/
abbrev w1Blk (c : Dev nD) (t : Fin cfg0.N) : Vec Ideal S512x256 .bf16 := iblk m c 3 t
/-- The first bias, as a row. -/
abbrev b1Blk (c : Dev nD) (t : Fin cfg0.N) : Vec Ideal S1x256 .f32 := iblk m c 4 t
/-- The second weight matrix. -/
abbrev w2Blk (c : Dev nD) (t : Fin cfg0.N) : Vec Ideal S256x1 .bf16 := iblk m c 5 t
/-- The second bias, as a 1 x 1 entry. -/
abbrev b2Blk (c : Dev nD) (t : Fin cfg0.N) : Vec Ideal S1x1 .f32 := iblk m c 6 t

/-- Tile n's addend to moment k of graph b, from the blocks point n reads (zero past the grid, where it is never used). -/
def addAt (c : Dev nD) (n : ℕ) (b : Fin 128) (k : Fin 5) : EReal :=
  if h : n < cfg0.N then
    tileAdd (wordBlk m c ⟨n, h⟩) (posBlk m c ⟨n, h⟩) (featBlk m c ⟨n, h⟩) (w1Blk m c ⟨n, h⟩) (b1Blk m c ⟨n, h⟩)
      (w2Blk m c ⟨n, h⟩) (b2Blk m c ⟨n, h⟩) b k
  else 0

/-! ## One point -/

/-- The first point of a run: the zero block and this tile's one-hot product. -/
theorem outsAt_first (c : Dev nD) (t : Fin cfg0.N) (h0 : t.val % 25 = 0) :
    outsAt0 m c t.val t.isLt
      = k0_pay1 (k0_pay3 (wordBlk m c t)) (k0_pay4 (featBlk m c t) (w1Blk m c t) (b1Blk m c t) (w2Blk m c t) (b2Blk m c t) (posBlk m c t))
          (k0_pay2 (F := Ideal)) := by
  rw [outsAt0_A m c t h0]
  exact out_first (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) ((hcond0_0 t).mpr h0)
    (iblk m c 0 t) (iblk m c 1 t) (iblk m c 2 t) (iblk m c 3 t) (iblk m c 4 t) (iblk m c 5 t) (iblk m c 6 t)

/-- A later point of a run: what the point before left and this tile's one-hot product. -/
theorem outsAt_later (c : Dev nD) (t : Fin cfg0.N) (h0 : ¬t.val % 25 = 0) :
    outsAt0 m c t.val t.isLt
      = k0_pay1 (k0_pay3 (wordBlk m c t)) (k0_pay4 (featBlk m c t) (w1Blk m c t) (b1Blk m c t) (w2Blk m c t) (b2Blk m c t) (posBlk m c t))
          (outsAt0 m c (t.val - 1) (Nat.lt_of_le_of_lt (Nat.sub_le _ _) t.isLt)) := by
  rw [outsAt0_B m c t h0]
  exact out_later (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (fun h => h0 ((hcond0_0 t).mp h))
    (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt))

/-! ## The run's sum -/

section Sum

/- The body's store read at entry (b, k): the block it adds to, plus the tile's addend (the sum over the tile's rows of
   the one-hot entry times the moment row's entry). -/
variable (hstore : ∀ (x0 : Vec Ideal S2000x1 .i32) (x1 : Vec Ideal S2000x3 .f32) (x2 : Vec Ideal S2000x512 .f32)
    (x3 : Vec Ideal S512x256 .bf16) (x4 : Vec Ideal S1x256 .f32) (x5 : Vec Ideal S256x1 .bf16) (x6 : Vec Ideal S1x1 .f32)
    (acc : Vec Ideal S1x128x5 .f32) (b : Fin 128) (k : Fin 5),
    k0_pay1 (F := Ideal) (k0_pay3 x0) (k0_pay4 x2 x3 x4 x5 x6 x1) acc (ix3 0 b k)
      = acc (ix3 0 b k) + tileAdd x0 x1 x2 x3 x4 x5 x6 b k)
/- The reset block is zero. -/
variable (hzero : ∀ j : S1x128x5.Idx, k0_pay2 (F := Ideal) j = 0)

include hstore hzero

/-- After point n, entry (b, k) of the output block is the sum of the addends of tiles 25 (n / 25), …, n. -/
theorem outsAt_sum (c : Dev nD) : ∀ (n : ℕ) (h : n < cfg0.N) (b : Fin 128) (k : Fin 5),
    outsAt0 m c n h (ix3 0 b k) = ∑ s ∈ Finset.range (n % 25 + 1), addAt m c (25 * (n / 25) + s) b k
  | 0, h, b, k => by
    rw [show outsAt0 m c 0 h = _ from outsAt_first m c ⟨0, h⟩ rfl, hstore, hzero, zero_add]
    simp only [Nat.zero_mod, Nat.zero_div, Nat.mul_zero, Nat.zero_add, Finset.sum_range_one]
    unfold addAt
    rw [dif_pos h]
  | n + 1, h, b, k => by
    by_cases h0 : (n + 1) % 25 = 0
    · rw [show outsAt0 m c (n + 1) h = _ from outsAt_first m c ⟨n + 1, h⟩ h0, hstore, hzero, zero_add, h0]
      simp only [Nat.zero_add, Finset.sum_range_one, Nat.add_zero]
      have e : 25 * ((n + 1) / 25) = n + 1 := by omega
      rw [e]
      unfold addAt
      rw [dif_pos h]
    · rw [show outsAt0 m c (n + 1) h = _ from outsAt_later m c ⟨n + 1, h⟩ h0, hstore]
      have ih := outsAt_sum c n (Nat.lt_of_succ_lt h) b k
      have e1 : (n + 1) % 25 = n % 25 + 1 := by omega
      have e2 : (n + 1) / 25 = n / 25 := by omega
      have e3 : 25 * (n / 25) + (n % 25 + 1) = n + 1 := by omega
      rw [e1, e2, Finset.sum_range_succ _ (n % 25 + 1), e3]
      show outsAt0 m c n _ (ix3 0 b k) + _ = _
      rw [ih]
      congr 1
      unfold addAt
      rw [dif_pos h]

end Sum

end Cert.KernelIdeal.Acc

end
-- ==== Proof.KernelFinal.lean ====
/-
  The table the region leaves behind.

  The output array has one [128, 5] block per core.  A core's block sits in its buffer through the core's twenty-five
  points and is written back after the last, point 25 c + 24, when it holds the sum of all twenty-five tiles' addends.
  The two write-backs cover the array, so entry (c, b, k) of the array after the region is the sum over core c's tiles
  of their addends to moment k of graph b.
-/
import proofs.«430685_j27625229648413_2_alg».proof.Proof.KernelAcc
import Idealize.ShloMosaic.Lib.Pipeline.Value

set_option maxRecDepth 16384

noncomputable section

namespace Cert.KernelIdeal.Final

open Cert.KernelIdeal Cert.KernelIdeal.Gen Cert.KernelIdeal.Acc Cert.Moments
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- Core q's sum of addends to moment k of graph b. -/
def coreSum (c : Dev nD) (q : ℕ) (b : Fin 128) (k : Fin 5) : EReal :=
  ∑ s ∈ Finset.range 25, addAt m c (25 * q + s) b k

/-- The table: entry (q, b, k) is core q's sum. -/
def table (c : Dev nD) : FVec Ideal S2x128x5 .f32 :=
  fun j => coreSum m c (j 0).val ⟨(j 1).val, (j 1).isLt⟩ ⟨(j 2).val, (j 2).isLt⟩

theorem table_apply (c : Dev nD) (q : Fin 2) (b : Fin 128) (k : Fin 5) :
    table m c (ix3 q b k) = coreSum m c q.val b k := rfl

/-- The output window's block index at point t: the core t / 25, and the one block along the other two axes. -/
theorem idx_out : ∀ t : Fin cfg0.N,
    win0_7.index t (0 : Fin 3) = t.val / 25 ∧ win0_7.index t (1 : Fin 3) = 0 ∧ win0_7.index t (2 : Fin 3) = 0 :=
  (by decide +kernel : ∀ t : Fin grid0.N, _)

/-- An index of the array is in point t's block iff each coordinate is in the block's range on its axis. -/
theorem mem_blk (t : Fin cfg0.N) (i : S2x128x5.Idx) :
    i ∈ ((cfg0.win 7).blk t).view.set
      ↔ ∀ a : Fin 3, win0_7.index t a * S1x128x5.size a ≤ (i a).val
          ∧ (i a).val < win0_7.index t a * S1x128x5.size a + S1x128x5.size a := by
  show i ∈ ((View.whole main_v5).slice (win0_7.rect t)).set ↔ _
  rw [View.set_slice_whole, Rect.mem_set_unit]
  exact Iff.rfl

/-- The two write-backs cover the array: entry (q, ·, ·) lies in the block written back at point 25 q + 24. -/
theorem cover (i : S2x128x5.Idx) :
    ∃ t : Fin cfg0.N, (cfg0.win 7).flush t = true ∧ i ∈ ((cfg0.win 7).blk t).view.set := by
  have h0 : (i 0).val < 2 := (i 0).isLt
  have h1 : (i 1).val < 128 := (i 1).isLt
  have h2 : (i 2).val < 5 := (i 2).isLt
  have hN : cfg0.N = 50 := N_0
  have hlt : 25 * (i 0).val + 24 < cfg0.N := by rw [hN]; omega
  refine ⟨⟨25 * (i 0).val + 24, hlt⟩, (flush0_7 _).mpr (by show (25 * (i 0).val + 24) % 25 = 24; omega), ?_⟩
  rw [mem_blk]
  obtain ⟨e0, e1, e2⟩ := idx_out ⟨25 * (i 0).val + 24, hlt⟩
  have e0' : win0_7.index ⟨25 * (i 0).val + 24, hlt⟩ (0 : Fin 3) = (i 0).val := by rw [e0]; show (25 * (i 0).val + 24) / 25 = _; omega
  intro a
  match a with
  | ⟨0, _⟩ =>
    show win0_7.index ⟨25 * (i 0).val + 24, hlt⟩ (0 : Fin 3) * 1 ≤ (i 0).val
      ∧ (i 0).val < win0_7.index ⟨25 * (i 0).val + 24, hlt⟩ (0 : Fin 3) * 1 + 1
    rw [e0']; omega
  | ⟨1, _⟩ =>
    show win0_7.index ⟨25 * (i 0).val + 24, hlt⟩ (1 : Fin 3) * 128 ≤ (i 1).val
      ∧ (i 1).val < win0_7.index ⟨25 * (i 0).val + 24, hlt⟩ (1 : Fin 3) * 128 + 128
    rw [e1]; omega
  | ⟨2, _⟩ =>
    show win0_7.index ⟨25 * (i 0).val + 24, hlt⟩ (2 : Fin 3) * 5 ≤ (i 2).val
      ∧ (i 2).val < win0_7.index ⟨25 * (i 0).val + 24, hlt⟩ (2 : Fin 3) * 5 + 5
    rw [e2]; omega

section Sum

variable (hstore : ∀ (x0 : Vec Ideal S2000x1 .i32) (x1 : Vec Ideal S2000x3 .f32) (x2 : Vec Ideal S2000x512 .f32)
    (x3 : Vec Ideal S512x256 .bf16) (x4 : Vec Ideal S1x256 .f32) (x5 : Vec Ideal S256x1 .bf16) (x6 : Vec Ideal S1x1 .f32)
    (acc : Vec Ideal S1x128x5 .f32) (b : Fin 128) (k : Fin 5),
    k0_pay1 (F := Ideal) (k0_pay3 x0) (k0_pay4 x2 x3 x4 x5 x6 x1) acc (ix3 0 b k)
      = acc (ix3 0 b k) + tileAdd x0 x1 x2 x3 x4 x5 x6 b k)
variable (hzero : ∀ j : S1x128x5.Idx, k0_pay2 (F := Ideal) j = 0)

include hstore hzero

/-- What a flushing point writes back is its core's block of the table. -/
theorem flushed_eq (c : Dev nD) (t : Fin cfg0.N) (hf : (cfg0.win 7).flush t = true) :
    (dats m 0 c).flushed 7 t = ((cfg0.win 7).blk t).view.read (Elt Ideal) (table m c) := by
  have hN : t.val < 50 := lt_of_lt_of_eq t.isLt (show cfg0.N = 50 from N_0)
  have h24 : t.val % 25 = 24 := (flush0_7 t).mp hf
  obtain ⟨e0, e1, e2⟩ := idx_out t
  show (cfg0.win 7).cut (grid0.coords t) ((dats m 0 c).after 7 t) = _
  rw [after0_7]
  funext y
  obtain ⟨u, b, k, rfl⟩ : ∃ (u : Fin 1) (b : Fin 128) (k : Fin 5), y = ix3 u b k := ⟨y 0, y 1, y 2, eq_ix3 y⟩
  obtain rfl : u = 0 := Subsingleton.elim _ _
  have hemb : ((cfg0.win 7).blk t).view.emb (ix3 (0 : Fin 1) b k) = ix3 (⟨t.val / 25, by omega⟩ : Fin 2) b k := by
    funext a; apply Fin.ext
    match a with
    | ⟨0, _⟩ => show win0_7.index t (0 : Fin 3) * 1 + 1 * 0 = t.val / 25; rw [e0]; omega
    | ⟨1, _⟩ => show win0_7.index t (1 : Fin 3) * 128 + 1 * b.val = b.val; rw [e1]; omega
    | ⟨2, _⟩ => show win0_7.index t (2 : Fin 3) * 5 + 1 * k.val = k.val; rw [e2]; omega
  show outsAt0 m c t.val t.isLt (ix3 0 b k) = table m c (((cfg0.win 7).blk t).view.emb (ix3 (0 : Fin 1) b k))
  rw [hemb, table_apply, outsAt_sum m hstore hzero c t.val t.isLt b k, h24]
  rfl

/-- The array after the region is the table. -/
theorem final (c : Dev nD) : (dats m 0 c).arrAt 7 cfg0.N = table m c :=
  (dats m 0 c).arrAt_eq_of_cover 7 (table m c) (flushed_eq m hstore hzero c) cover

end Sum

end Cert.KernelIdeal.Final

end
-- ==== Proof.KernelBlocks.lean ====
/-
  The blocks a grid point reads are rows of the argument arrays.

  Point t reads tile t: rows 2000 t, …, 2000 t + 1999 of the graph words, the positions and the features, and the whole
  of the two weight matrices and the two biases (the words and the biases through a reshape, the weights through a
  change of float format, which changes no value here).  So the addend the point contributes is the tile's share of the
  graph's moment, stated over the argument arrays.
-/
import proofs.«430685_j27625229648413_2_alg».proof.Proof.KernelAcc
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Acc Cert.Moments
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ)

/-- Row r of tile n is node 2000 n + r, for a tile of the grid. -/
theorem node_val (n : ℕ) (r : Fin 2000) (h : n < 50) : (node n r).val = n * 2000 + r.val := by
  show (n * 2000 + r.val) % 100000 = _
  have := r.isLt
  exact Nat.mod_eq_of_lt (by omega)

/-- The block index of every input window at point t: tile t for the three tiled windows, the one block of the others. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The arrays the host writes before the region -/

/-- The graph words as a column. -/
theorem V_words (c : Dev nD) :
    V m c main_v0 = shapeCast S100000x1 (m ((c : Thread nD τ).loc main_arg4)) shapeCasts_S100000_S100000x1 := by
  show StableHlo.after hostOps0 (fun b => m (c, b)) (Proc.devRef .tc main_v0) = _
  after_results; rfl

/-- The first bias as a row. -/
theorem V_b1 (c : Dev nD) :
    V m c main_v1 = shapeCast S1x256 (m ((c : Thread nD τ).loc main_arg6)) shapeCasts_S256_S1x256 := by
  show StableHlo.after hostOps0 (fun b => m (c, b)) (Proc.devRef .tc main_v1) = _
  after_results; rfl

/-- The second bias as a 1 x 1 entry. -/
theorem V_b2 (c : Dev nD) :
    V m c main_v2 = shapeCast S1x1 (m ((c : Thread nD τ).loc main_arg8)) shapeCasts_S1_S1x1 := by
  show StableHlo.after hostOps0 (fun b => m (c, b)) (Proc.devRef .tc main_v2) = _
  after_results; rfl

/-- The first weight matrix in the narrower format. -/
theorem V_w1 (c : Dev nD) :
    V m c main_v3
      = (truncf (F := Ideal) .bf16 (m ((c : Thread nD τ).loc main_arg5) : FVec Ideal S512x256 .f32) bitsLt_bf16_f32 : FVec Ideal S512x256 .bf16) := by
  show StableHlo.after hostOps0 (fun b => m (c, b)) (Proc.devRef .tc main_v3) = _
  after_results

/-- The second weight matrix in the narrower format. -/
theorem V_w2 (c : Dev nD) :
    V m c main_v4
      = (truncf (F := Ideal) .bf16 (m ((c : Thread nD τ).loc main_arg7) : FVec Ideal S256x1 .f32) bitsLt_bf16_f32 : FVec Ideal S256x1 .bf16) := by
  show StableHlo.after hostOps0 (fun b => m (c, b)) (Proc.devRef .tc main_v4) = _
  after_results

/-! ## Each block at an index -/

theorem wordBlk_apply (c : Dev nD) (t : Fin cfg0.N) (r : Fin 2000) :
    wordBlk m c t (ix2 r 0) = m ((c : Thread nD τ).loc main_arg4) (ix1 (node t.val r)) := by
  have hN : t.val < 50 := lt_of_lt_of_eq t.isLt (show cfg0.N = 50 from N_0)
  obtain ⟨e0, e1, -⟩ := idx_in t
  show V m c main_v0 (((cfg0.win 0).blk t).view.emb (ix2 r 0)) = _
  rw [V_words]
  refine shapeCast_apply _ _ _ (ix1 (node t.val r)) ?_
  rw [Shape.rowMajor_val_two, Shape.rowMajor_val_one]
  show (node t.val r).val = (win0_0.index t (0 : Fin 2) * 2000 + 1 * r.val) * 1 + (win0_0.index t (1 : Fin 2) * 1 + 1 * 0)
  rw [node_val _ _ hN, e0, e1]; omega

theorem posBlk_apply (c : Dev nD) (t : Fin cfg0.N) (r : Fin 2000) (d : Fin 3) :
    posBlk m c t (ix2 r d) = m ((c : Thread nD τ).loc main_arg0) (ix2 (node t.val r) d) := by
  have hN : t.val < 50 := lt_of_lt_of_eq t.isLt (show cfg0.N = 50 from N_0)
  obtain ⟨-, -, e0, e1, -⟩ := idx_in t
  show V m c main_arg0 (((cfg0.win 1).blk t).view.emb (ix2 r d)) = _
  rw [V_main_arg0]
  refine congrArg _ (funext fun a => Fin.ext ?_)
  match a with
  | ⟨0, _⟩ => show win0_1.index t (0 : Fin 2) * 2000 + 1 * r.val = (node t.val r).val; rw [node_val _ _ hN, e0]; omega
  | ⟨1, _⟩ => show win0_1.index t (1 : Fin 2) * 3 + 1 * d.val = d.val; rw [e1]; omega

theorem featBlk_apply (c : Dev nD) (t : Fin cfg0.N) (r : Fin 2000) (f : Fin 512) :
    featBlk m c t (ix2 r f) = m ((c : Thread nD τ).loc main_arg2) (ix2 (node t.val r) f) := by
  have hN : t.val < 50 := lt_of_lt_of_eq t.isLt (show cfg0.N = 50 from N_0)
  obtain ⟨-, -, -, -, e0, e1, -⟩ := idx_in t
  show V m c main_arg2 (((cfg0.win 2).blk t).view.emb (ix2 r f)) = _
  rw [V_main_arg2]
  refine congrArg _ (funext fun a => Fin.ext ?_)
  match a with
  | ⟨0, _⟩ => show win0_2.index t (0 : Fin 2) * 2000 + 1 * r.val = (node t.val r).val; rw [node_val _ _ hN, e0]; omega
  | ⟨1, _⟩ => show win0_2.index t (1 : Fin 2) * 512 + 1 * f.val = f.val; rw [e1]; omega

theorem w1Blk_apply (c : Dev nD) (t : Fin cfg0.N) (f : Fin 512) (h : Fin 256) :
    w1Blk m c t (ix2 f h) = m ((c : Thread nD τ).loc main_arg5) (ix2 f h) := by
  obtain ⟨-, -, -, -, -, -, e0, e1, -⟩ := idx_in t
  show V m c main_v3 (((cfg0.win 3).blk t).view.emb (ix2 f h)) = _
  rw [V_w1]
  show (m ((c : Thread nD τ).loc main_arg5) : FVec Ideal S512x256 .f32) (((cfg0.win 3).blk t).view.emb (ix2 f h)) = _
  refine congrArg _ (funext fun a => Fin.ext ?_)
  match a with
  | ⟨0, _⟩ => show win0_3.index t (0 : Fin 2) * 512 + 1 * f.val = f.val; rw [e0]; omega
  | ⟨1, _⟩ => show win0_3.index t (1 : Fin 2) * 256 + 1 * h.val = h.val; rw [e1]; omega

theorem b1Blk_apply (c : Dev nD) (t : Fin cfg0.N) (h : Fin 256) :
    b1Blk m c t (ix2 0 h) = m ((c : Thread nD τ).loc main_arg6) (ix1 h) := by
  obtain ⟨-, -, -, -, -, -, -, -, e0, e1, -⟩ := idx_in t
  show V m c main_v1 (((cfg0.win 4).blk t).view.emb (ix2 0 h)) = _
  rw [V_b1]
  refine shapeCast_apply _ _ _ (ix1 h) ?_
  rw [Shape.rowMajor_val_two, Shape.rowMajor_val_one]
  show h.val = (win0_4.index t (0 : Fin 2) * 1 + 1 * 0) * 256 + (win0_4.index t (1 : Fin 2) * 256 + 1 * h.val)
  rw [e0, e1]; omega

theorem w2Blk_apply (c : Dev nD) (t : Fin cfg0.N) (h : Fin 256) :
    w2Blk m c t (ix2 h 0) = m ((c : Thread nD τ).loc main_arg7) (ix2 h 0) := by
  obtain ⟨-, -, -, -, -, -, -, -, -, -, e0, e1, -⟩ := idx_in t
  show V m c main_v4 (((cfg0.win 5).blk t).view.emb (ix2 h 0)) = _
  rw [V_w2]
  show (m ((c : Thread nD τ).loc main_arg7) : FVec Ideal S256x1 .f32) (((cfg0.win 5).blk t).view.emb (ix2 h 0)) = _
  refine congrArg _ (funext fun a => Fin.ext ?_)
  match a with
  | ⟨0, _⟩ => show win0_5.index t (0 : Fin 2) * 256 + 1 * h.val = h.val; rw [e0]; omega
  | ⟨1, _⟩ => show win0_5.index t (1 : Fin 2) * 1 + 1 * 0 = 0; rw [e1]

theorem b2Blk_apply (c : Dev nD) (t : Fin cfg0.N) :
    b2Blk m c t (ix2 0 0) = m ((c : Thread nD τ).loc main_arg8) (ix1 0) := by
  obtain ⟨-, -, -, -, -, -, -, -, -, -, -, -, e0, e1⟩ := idx_in t
  show V m c main_v2 (((cfg0.win 6).blk t).view.emb (ix2 0 0)) = _
  rw [V_b2]
  refine shapeCast_apply _ _ _ (ix1 0) ?_
  rw [Shape.rowMajor_val_two, Shape.rowMajor_val_one]
  show 0 = (win0_6.index t (0 : Fin 2) * 1 + 1 * 0) * 1 + (win0_6.index t (1 : Fin 2) * 1 + 1 * 0)
  rw [e0, e1]

/-! ## A point's addend is its tile's share of the moment -/

theorem addAt_eq (c : Dev nD) (n : ℕ) (hn : n < 50) (b : Fin 128) (k : Fin 5) :
    addAt m c n b k
      = tileMoment
          (chargeOf (m ((c : Thread nD τ).loc main_arg2)) (m ((c : Thread nD τ).loc main_arg5))
            (m ((c : Thread nD τ).loc main_arg6)) (m ((c : Thread nD τ).loc main_arg7)) (m ((c : Thread nD τ).loc main_arg8)))
          (posOf (m ((c : Thread nD τ).loc main_arg0))) (wordOf (m ((c : Thread nD τ).loc main_arg4))) n b k := by
  have hN : n < cfg0.N := lt_of_lt_of_eq hn (show cfg0.N = 50 from N_0).symm
  unfold addAt
  rw [dif_pos hN]
  unfold tileAdd tileMoment chargeOf posOf wordOf
  refine Finset.sum_congr rfl fun r _ => ?_
  simp only [wordBlk_apply, posBlk_apply, featBlk_apply, w1Blk_apply, b1Blk_apply, w2Blk_apply, b2Blk_apply]

end Cert.KernelIdeal.Blocks

end
-- ==== Proof.KernelTail.lean ====
/-
  The operations of the kernel program that follow its region, read at an index.

  The region leaves a table of shape [2 cores, 128 graphs, 5 moments]: per core and per graph, the sums over that
  core's tiles of the charge times (1, the three coordinates, the squared norm) of the position.  The nineteen
  operations after it add the two cores' tables, take column 0, columns 1 to 3 and column 4 of the sum, and with the
  mass centres c (the argument main_arg1, [128, 3]) form
      (column 4 - 2 * (row sums of c times columns 1..3)) + (row sums of c times c) * column 0,
  which is |p|^2 - 2 c.p + |c|^2 summed with the charges: Moments.lean's combine of the five moments and the centre.
  First the last buffer is shown to hold one composed term of the region's table and the mass centres; then that term
  is read entry by entry.
-/
import proofs.«430685_j27625229648413_2_alg».proof.Proof.Gen.KernelIdeal.Frame
import proofs.«430685_j27625229648413_2_alg».proof.Proof.Moments
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Tail

open Cert.KernelIdeal Cert.KernelIdeal.Gen Cert.Moments Idealize.ShloMosaic Idealize.ShloMosaic.TcCoe Idealize.ShloMosaic.ValueIdx Idealize.SL.Sem
open scoped BigOperators

variable (m : (ℓ : Loc nD τ sig) → Buf (Elt Ideal) ℓ)

/-- The table the region leaves in main_v5, [2 cores, 128 graphs, 5 moments], named at its literal type. -/
abbrev outArr (c : Dev nD) : FVec Ideal S2x128x5 .f32 := (dats (F := Ideal) m 0 c).arrAt 7 cfg0.N

/-- The scalar every sum starts from. -/
def zero0 : FVec Ideal S_ .f32 := constant (F := Ideal) S_ .f32 0x00000000#32

/-- The two cores' partial tables added entry by entry: [128 graphs, 5 moments]. -/
def coreSum (v5 : FVec Ideal S2x128x5 .f32) : FVec Ideal S128x5 .f32 :=
  Host.reduceAdd (F := Ideal) v5 zero0 reducesTo_S2x128x5_S128x5_d0 h_S_

/-- What the operations after the region compute from the region's table v5 and the mass centres a1:
    (column 4 of the summed table, minus twice the row sums of a1 times columns 1..3) plus (the row sums of
    a1 squared, times column 0). -/
def tailTerm (v5 : FVec Ideal S2x128x5 .f32) (a1 : FVec Ideal S128x3 .f32) : FVec Ideal S128x1 .f32 :=
  addf
    (subf
      (extractStridedSlice S128x1 ![0, 4] (coreSum v5) slices_S128x5_S128x1_0_4)
      (mulf (broadcastInDim S128x1 ![] bcast_S_S128x1 (constant (F := Ideal) S_ .f32 0x40000000#32))
        (broadcastInDim S128x1 ![0] bcast_S128_S128x1_0
          (Host.reduceAdd (F := Ideal)
            (mulf a1 (extractStridedSlice S128x3 ![0, 1] (coreSum v5) slices_S128x5_S128x3_0_1))
            zero0 reducesTo_S128x3_S128_d1 h_S_))))
    (mulf
      (broadcastInDim S128x1 ![0] bcast_S128_S128x1_0
        (Host.reduceAdd (F := Ideal) (mulf a1 a1) zero0 reducesTo_S128x3_S128_d1 h_S_))
      (extractStridedSlice S128x1 ![0, 0] (coreSum v5) slices_S128x5_S128x1_0_0))

/-- The last buffer the tail writes is tailTerm of the region's table and the mass centres as launched: each operation's
    result is its function of its operands' contents; the region's table is what the region left in main_v5; no
    operation before or after the region, and no window, writes main_arg1. -/
theorem open_tail (c : Dev nD) :
    Pipeline.afterTail₀ cfgs (dats (F := Ideal) m) 0 (V0 m) [hostOps1] c main_v20
      = tailTerm (outArr m c) (m ((c : Thread nD τ).loc main_arg1)) := by
  unfold Pipeline.afterTail₀
  simp only [List.flatten_cons, List.flatten_nil, List.append_nil]
  unfold hostOps1
  after_results_simp
  have h5 : Pipeline.withArrays (cfgs 0).spec c (V0 m c) (fun w => (dats (F := Ideal) m 0 c).arrAt w (cfgs 0).N)
      (Proc.devRef .tc main_v5) = outArr m c :=
    Pipeline.withArrays_arr spec0 launch0.win.arr_inj c _ _ 7
  have h1 : Pipeline.withArrays (cfgs 0).spec c (V0 m c) (fun w => (dats (F := Ideal) m 0 c).arrAt w (cfgs 0).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  rw [h5, h1]
  rfl

/-! ## The composed term read at an index -/

section Read

variable (v5 : FVec Ideal S2x128x5 .f32) (a1 : FVec Ideal S128x3 .f32)

/-- The pattern 0x40000000 (sign 0, exponent 128, fraction 0) is the number two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- Every sum starts from zero. -/
theorem zero0_apply (i : S_.Idx) : zero0 i = 0 := Ideal.ofBits_zero_f32

/-- Entry (b, k) of the summed table is the sum over the two cores of their entries (b, k). -/
theorem coreSum_apply (b : Fin 128) (k : Fin 5) : coreSum v5 (ix2 b k) = ∑ c' : Fin 2, v5 (ix3 c' b k) := by
  unfold coreSum
  simp only [Host.reduceAdd, Ideal.hostReduceAdd_def]
  rw [Ideal.hostReduceAdd_single reducesTo_S2x128x5_S128x5_d0 (by decide), zero0_apply, zero_add]
  refine Finset.sum_congr rfl fun c' _ => ?_
  exact congrArg v5 (funext fun a => Fin.ext (by match a with | ⟨0, _⟩ => rfl | ⟨1, _⟩ => rfl | ⟨2, _⟩ => rfl))

/-- Entry b of a [128, 3] array summed along its rows is the sum of row b's three entries. -/
theorem rowSum_apply (y : FVec Ideal S128x3 .f32) (b : Fin 128) :
    Host.reduceAdd (F := Ideal) y zero0 reducesTo_S128x3_S128_d1 h_S_ (ix1 b) = ∑ d : Fin 3, y (ix2 b d) := by
  simp only [Host.reduceAdd, Ideal.hostReduceAdd_def]
  rw [Ideal.hostReduceAdd_single reducesTo_S128x3_S128_d1 (by decide), zero0_apply, zero_add]
  refine Finset.sum_congr rfl fun d _ => ?_
  exact congrArg y (funext fun a => Fin.ext (by match a with | ⟨0, _⟩ => rfl | ⟨1, _⟩ => rfl))

/-- Column 0 of a [128, 5] table, as a [128, 1] array. -/
theorem col0_apply (x : FVec Ideal S128x5 .f32) (b : Fin 128) :
    extractStridedSlice S128x1 ![0, 0] x slices_S128x5_S128x1_0_0 (ix2 b 0) = x (ix2 b 0) :=
  extractStridedSlice_apply _ x _ _ _ (fun a => by
    match a with
    | ⟨0, _⟩ => show b.val = 0 + b.val; omega
    | ⟨1, _⟩ => rfl)

/-- Column 4 of a [128, 5] table, as a [128, 1] array. -/
theorem col4_apply (x : FVec Ideal S128x5 .f32) (b : Fin 128) :
    extractStridedSlice S128x1 ![0, 4] x slices_S128x5_S128x1_0_4 (ix2 b 0) = x (ix2 b 4) :=
  extractStridedSlice_apply _ x _ _ _ (fun a => by
    match a with
    | ⟨0, _⟩ => show b.val = 0 + b.val; omega
    | ⟨1, _⟩ => rfl)

/-- Columns 1 to 3 of a [128, 5] table, as a [128, 3] array: its column d is the table's column d + 1. -/
theorem cols_apply (x : FVec Ideal S128x5 .f32) (b : Fin 128) (d : Fin 3) :
    extractStridedSlice S128x3 ![0, 1] x slices_S128x5_S128x3_0_1 (ix2 b d) = x (ix2 b ⟨d.val + 1, by omega⟩) :=
  extractStridedSlice_apply _ x _ _ _ (fun a => by
    match a with
    | ⟨0, _⟩ => show b.val = 0 + b.val; omega
    | ⟨1, _⟩ => show d.val + 1 = 1 + d.val; omega)

/-- A [128] array as a [128, 1] column. -/
theorem column_apply (y : FVec Ideal S128 .f32) (b : Fin 128) :
    broadcastInDim S128x1 ![0] bcast_S128_S128x1_0 y (ix2 b 0) = y (ix1 b) :=
  broadcastInDim_apply _ bcast_S128_S128x1_0 y _ _ (fun a => by
    match a with
    | ⟨0, _⟩ => show b.val = if (128 : Nat) = 1 then 0 else b.val; rw [if_neg (by decide)])

/-- A scalar spread over a [128, 1] column. -/
theorem spread_apply (y : FVec Ideal S_ .f32) (j : S128x1.Idx) :
    broadcastInDim S128x1 ![] bcast_S_S128x1 y j = y ix0 :=
  broadcastInDim_apply _ bcast_S_S128x1 y _ _ (fun a => a.elim0)

/-- THE TAIL AT AN INDEX: entry (b, 0) of the composed term is the five moments of graph b, summed over the two
    cores, combined with graph b's mass centre. -/
theorem tailTerm_apply (b : Fin 128) :
    tailTerm v5 a1 (ix2 b 0) = combine (fun k => ∑ c' : Fin 2, v5 (ix3 c' b k)) (fun d => a1 (ix2 b d)) := by
  unfold tailTerm combine
  simp only [addf_apply, subf_apply, mulf_apply, col0_apply, col4_apply, coreSum_apply]
  rw [column_apply, column_apply, spread_apply, rowSum_apply, rowSum_apply, constant_apply, ofBits_two_f32]
  simp only [mulf_apply, cols_apply, coreSum_apply]

end Read

/-- THE TAIL'S VALUE: after the operations that follow the region, entry (b, 0) of the last buffer is graph b's five
    moments, each the sum of the two cores' partial tables, combined with graph b's mass centre as launched. -/
theorem tail_value (c : Dev nD) :
    Pipeline.afterTail₀ cfgs (dats (F := Ideal) m) 0 (V0 m) [hostOps1] c main_v20
      = fun j => combine (fun k => ∑ c' : Fin 2, outArr m c (ix3 c' (j 0) k))
          (fun d => m ((c : Thread nD τ).loc main_arg1) (ix2 (j 0) d)) := by
  rw [open_tail]
  funext (j : S128x1.Idx)
  -- the second axis has one coordinate, so j is (j 0, 0)
  have h1 : (j 1).val = 0 := Nat.lt_one_iff.mp (j 1).isLt
  have hj : j = ix2 (j 0) 0 := funext fun a => by
    match a with
    | ⟨0, _⟩ => rfl
    | ⟨1, _⟩ => exact Fin.ext h1
  exact (congrArg (tailTerm (outArr m c) (m ((c : Thread nD τ).loc main_arg1))) hj).trans
    (tailTerm_apply _ _ (j 0))

end Cert.KernelIdeal.Tail

end
-- ==== Proof.KernelPayload.lean ====
/-
  The arithmetic of one grid step of the kernel, read entry by entry of the block it stores.

  A step holds a tile of 2000 nodes: their graph words, positions and feature rows, with the two weight matrices and
  the two biases. It forms the one-hot matrix of the graph words (entry (r, b) is 1 where row r's word names graph b,
  else 0) and the moment rows (entry (r, k) is the charge of row r, a two-layer network on its feature row, times
  feature k of its position: 1, the three coordinates, the squared norm). It then contracts the two over their 2000
  rows and adds the result to the block it loaded. So entry (b, k) of what it stores is the loaded entry plus the sum,
  over the rows r of the tile, of [row r is in graph b] times charge r times feature k of position r: the tile's share
  of moment k of graph b. The very first step stores the zero block instead.

  Every number is an extended real and every operation the exact one; a change of float format is the identity.
-/
import proofs.«430685_j27625229648413_2_alg».proof.Proof.Gen.KernelIdeal.Skeleton
import proofs.«430685_j27625229648413_2_alg».proof.Proof.Moments
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Payload

open Cert.KernelIdeal Cert.KernelIdeal.Gen Cert.Moments Idealize.ShloMosaic Idealize.ShloMosaic.ValueIdx
open scoped BigOperators

/-! ## The three matrix products, read at an entry

Each product contracts one axis and accumulates into zero, so an entry is the plain sum over the contracted
coordinate of the products of the two operands' entries. The four lemmas before each say which coordinate of
each operand is the entry's row or column and which is the contracted one. -/

theorem lhs_d1_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs_d1_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs_d1_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs_d1_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- Features times the first weight matrix: entry (r, h) sums over the 512 features f. -/
theorem mm1_apply (A : FVec Ideal S2000x512 .bf16) (B : FVec Ideal S512x256 .bf16) (r : Fin 2000) (h : Fin 256) :
    matmul (F := Ideal) dot_S2000x512_S512x256_S2000x256_1_0_0_1_n_n none A B (constant S2000x256 .f32 0x00000000#32) (ix2 r h)
      = ∑ f : Fin 512, A (ix2 r f) * B (ix2 f h) := by
  show FloatOps.matmul dot_S2000x512_S512x256_S2000x256_1_0_0_1_n_n none A B (constant S2000x256 .f32 0x00000000#32) (ix2 r h) = _
  rw [Ideal.matmul_constant_zero_apply, ← Equiv.sum_comp (contrEquiv1 dot_S2000x512_S512x256_S2000x256_1_0_0_1_n_n 512 rfl rfl).symm]
  refine Finset.sum_congr rfl fun f _ => ?_
  have hk := contrEquiv1_symm_val dot_S2000x512_S512x256_S2000x256_1_0_0_1_n_n 512 rfl rfl f
  have el : dot_S2000x512_S512x256_S2000x256_1_0_0_1_n_n.lhsIdx (ix2 r h) ((contrEquiv1 dot_S2000x512_S512x256_S2000x256_1_0_0_1_n_n 512 rfl rfl).symm f) = ix2 r f := funext fun a => Fin.ext (by
    match a with
    | ⟨0, _⟩ => exact lhs_d1_0 _ _
    | ⟨1, _⟩ => exact (lhs_d1_1 _ _).trans hk)
  have er : dot_S2000x512_S512x256_S2000x256_1_0_0_1_n_n.rhsIdx (ix2 r h) ((contrEquiv1 dot_S2000x512_S512x256_S2000x256_1_0_0_1_n_n 512 rfl rfl).symm f) = ix2 f h := funext fun a => Fin.ext (by
    match a with
    | ⟨0, _⟩ => exact (rhs_d1_0 _ _).trans hk
    | ⟨1, _⟩ => exact rhs_d1_1 _ _)
  rw [el, er]

theorem lhs_d2_0 (i : S2000x1.Idx) (q : dot_S2000x256_S256x1_S2000x1_1_0_0_1_n_n.contr.Idx) :
    (dot_S2000x256_S256x1_S2000x1_1_0_0_1_n_n.lhsIdx i q 0).val = (i 0).val := by
  unfold DotDims.lhsIdx
  rw [dif_neg (show ¬(0 : Fin S2000x256.rank) ∈ dot_S2000x256_S256x1_S2000x1_1_0_0_1_n_n.lhsBatch by decide), dif_pos (show (0 : Fin S2000x256.rank) ∈ dot_S2000x256_S256x1_S2000x1_1_0_0_1_n_n.lhsNonContracting by decide)]
  rfl
theorem lhs_d2_1 (i : S2000x1.Idx) (q : dot_S2000x256_S256x1_S2000x1_1_0_0_1_n_n.contr.Idx) :
    (dot_S2000x256_S256x1_S2000x1_1_0_0_1_n_n.lhsIdx i q 1).val = (q ⟨0, by decide⟩).val :=
  dot_S2000x256_S256x1_S2000x1_1_0_0_1_n_n.lhsIdx_val_of_single rfl i q
theorem rhs_d2_0 (i : S2000x1.Idx) (q : dot_S2000x256_S256x1_S2000x1_1_0_0_1_n_n.contr.Idx) :
    (dot_S2000x256_S256x1_S2000x1_1_0_0_1_n_n.rhsIdx i q 0).val = (q ⟨0, by decide⟩).val :=
  dot_S2000x256_S256x1_S2000x1_1_0_0_1_n_n.rhsIdx_val_of_single rfl i q
theorem rhs_d2_1 (i : S2000x1.Idx) (q : dot_S2000x256_S256x1_S2000x1_1_0_0_1_n_n.contr.Idx) :
    (dot_S2000x256_S256x1_S2000x1_1_0_0_1_n_n.rhsIdx i q 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl

/-- Hidden layer times the second weight column: entry (r, c) sums over the 256 hidden units h. -/
theorem mm2_apply (A : FVec Ideal S2000x256 .bf16) (B : FVec Ideal S256x1 .bf16) (r : Fin 2000) (c : Fin 1) :
    matmul (F := Ideal) dot_S2000x256_S256x1_S2000x1_1_0_0_1_n_n none A B (constant S2000x1 .f32 0x00000000#32) (ix2 r c)
      = ∑ h : Fin 256, A (ix2 r h) * B (ix2 h c) := by
  show FloatOps.matmul dot_S2000x256_S256x1_S2000x1_1_0_0_1_n_n none A B (constant S2000x1 .f32 0x00000000#32) (ix2 r c) = _
  rw [Ideal.matmul_constant_zero_apply, ← Equiv.sum_comp (contrEquiv1 dot_S2000x256_S256x1_S2000x1_1_0_0_1_n_n 256 rfl rfl).symm]
  refine Finset.sum_congr rfl fun h _ => ?_
  have hk := contrEquiv1_symm_val dot_S2000x256_S256x1_S2000x1_1_0_0_1_n_n 256 rfl rfl h
  have el : dot_S2000x256_S256x1_S2000x1_1_0_0_1_n_n.lhsIdx (ix2 r c) ((contrEquiv1 dot_S2000x256_S256x1_S2000x1_1_0_0_1_n_n 256 rfl rfl).symm h) = ix2 r h := funext fun a => Fin.ext (by
    match a with
    | ⟨0, _⟩ => exact lhs_d2_0 _ _
    | ⟨1, _⟩ => exact (lhs_d2_1 _ _).trans hk)
  have er : dot_S2000x256_S256x1_S2000x1_1_0_0_1_n_n.rhsIdx (ix2 r c) ((contrEquiv1 dot_S2000x256_S256x1_S2000x1_1_0_0_1_n_n 256 rfl rfl).symm h) = ix2 h c := funext fun a => Fin.ext (by
    match a with
    | ⟨0, _⟩ => exact (rhs_d2_0 _ _).trans hk
    | ⟨1, _⟩ => exact rhs_d2_1 _ _)
  rw [el, er]

theorem lhs_d3_0 (i : S128x5.Idx) (q : dot_S2000x128_S2000x5_S128x5_0_0_1_1_n_n.contr.Idx) :
    (dot_S2000x128_S2000x5_S128x5_0_0_1_1_n_n.lhsIdx i q 0).val = (q ⟨0, by decide⟩).val :=
  dot_S2000x128_S2000x5_S128x5_0_0_1_1_n_n.lhsIdx_val_of_single rfl i q
theorem lhs_d3_1 (i : S128x5.Idx) (q : dot_S2000x128_S2000x5_S128x5_0_0_1_1_n_n.contr.Idx) :
    (dot_S2000x128_S2000x5_S128x5_0_0_1_1_n_n.lhsIdx i q 1).val = (i 0).val := by
  unfold DotDims.lhsIdx
  rw [dif_neg (show ¬(1 : Fin S2000x128.rank) ∈ dot_S2000x128_S2000x5_S128x5_0_0_1_1_n_n.lhsBatch by decide), dif_pos (show (1 : Fin S2000x128.rank) ∈ dot_S2000x128_S2000x5_S128x5_0_0_1_1_n_n.lhsNonContracting by decide)]
  rfl
theorem rhs_d3_0 (i : S128x5.Idx) (q : dot_S2000x128_S2000x5_S128x5_0_0_1_1_n_n.contr.Idx) :
    (dot_S2000x128_S2000x5_S128x5_0_0_1_1_n_n.rhsIdx i q 0).val = (q ⟨0, by decide⟩).val :=
  dot_S2000x128_S2000x5_S128x5_0_0_1_1_n_n.rhsIdx_val_of_single rfl i q
theorem rhs_d3_1 (i : S128x5.Idx) (q : dot_S2000x128_S2000x5_S128x5_0_0_1_1_n_n.contr.Idx) :
    (dot_S2000x128_S2000x5_S128x5_0_0_1_1_n_n.rhsIdx i q 1).val = (i 1).val := by
  unfold DotDims.rhsIdx
  rw [dif_neg (show ¬(1 : Fin S2000x5.rank) ∈ dot_S2000x128_S2000x5_S128x5_0_0_1_1_n_n.rhsBatch by decide), dif_pos (show (1 : Fin S2000x5.rank) ∈ dot_S2000x128_S2000x5_S128x5_0_0_1_1_n_n.rhsNonContracting by decide)]
  rfl
/-- The one-hot matrix against the moment rows, both contracted over their 2000 rows: entry (b, k) sums over the
    rows r the products of column b of the first and column k of the second. -/
theorem mm3_apply (A : FVec Ideal S2000x128 .f32) (B : FVec Ideal S2000x5 .f32) (b : Fin 128) (k : Fin 5) :
    matmul (F := Ideal) dot_S2000x128_S2000x5_S128x5_0_0_1_1_n_n (some .fp32) A B (constant S128x5 .f32 0x00000000#32) (ix2 b k)
      = ∑ r : Fin 2000, A (ix2 r b) * B (ix2 r k) := by
  show FloatOps.matmul dot_S2000x128_S2000x5_S128x5_0_0_1_1_n_n (some .fp32) A B (constant S128x5 .f32 0x00000000#32) (ix2 b k) = _
  rw [Ideal.matmul_constant_zero_apply, ← Equiv.sum_comp (contrEquiv1 dot_S2000x128_S2000x5_S128x5_0_0_1_1_n_n 2000 rfl rfl).symm]
  refine Finset.sum_congr rfl fun r _ => ?_
  have hk := contrEquiv1_symm_val dot_S2000x128_S2000x5_S128x5_0_0_1_1_n_n 2000 rfl rfl r
  have el : dot_S2000x128_S2000x5_S128x5_0_0_1_1_n_n.lhsIdx (ix2 b k) ((contrEquiv1 dot_S2000x128_S2000x5_S128x5_0_0_1_1_n_n 2000 rfl rfl).symm r) = ix2 r b := funext fun a => Fin.ext (by
    match a with
    | ⟨0, _⟩ => exact (lhs_d3_0 _ _).trans hk
    | ⟨1, _⟩ => exact lhs_d3_1 _ _)
  have er : dot_S2000x128_S2000x5_S128x5_0_0_1_1_n_n.rhsIdx (ix2 b k) ((contrEquiv1 dot_S2000x128_S2000x5_S128x5_0_0_1_1_n_n 2000 rfl rfl).symm r) = ix2 r k := funext fun a => Fin.ext (by
    match a with
    | ⟨0, _⟩ => exact (rhs_d3_0 _ _).trans hk
    | ⟨1, _⟩ => exact rhs_d3_1 _ _)
  rw [el, er]

/-! ## Words -/

/-- The single-precision pattern 0x3F800000 denotes the number one. -/
theorem ofBits_one_f32 : Ideal.ofBits .f32 0x3F800000#32 = 1 := by
  simp [Ideal.ofBits, Ideal.ieee, -EReal.coe_mul]; norm_num

/-- The equality test of two words, widened from one bit to 32 and then read as a signed integer, is one where
    the words agree and zero elsewhere. -/
theorem sitofp_eq_word (w v : BitVec 32) :
    FloatOps.sitofp (F := Ideal) .f32 ((IntOp.cmpi .eq w v).setWidth 32) = if w = v then (1 : EReal) else 0 := by
  show (((((IntOp.cmpi .eq w v).setWidth 32).toInt : ℝ)) : EReal) = _
  by_cases h : w = v
  · subst h
    simp [IntOp.cmpi]
  · have hb : (w == v) = false := beq_eq_false_iff_ne.mpr h
    simp [IntOp.cmpi, hb, h]

/-! ## The one-hot matrix of the tile's graph words -/

/-- Entry (r, b) of the one-hot matrix says whether row r's graph word names graph b. -/
theorem pay3_apply (x0 : Vec Ideal S2000x1 .i32) (r : Fin 2000) (b : Fin 128) :
    k0_pay3 (F := Ideal) x0 (ix2 r b) = member (x0 (ix2 r 0)) b := by
  unfold k0_pay3
  show FloatOps.sitofp (F := Ideal) .f32 ((IntOp.cmpi .eq
      (broadcastTo S2000x128 (shapeCast S2000x1 x0 shapeCasts_S2000x1_S2000x1) broadcasts_S2000x1_S2000x128 (ix2 r b))
      (iota .tc S2000x128 32 [1] iota_S2000x128_d1_w32 (ix2 r b))).setWidth 32) = _
  rw [shapeCast_self, iota_single_apply,
    broadcastTo_apply x0 broadcasts_S2000x1_S2000x128 (ix2 r b) (ix2 r 0) (fun a => match a with
      | ⟨0, _⟩ => by show r.val = if (2000 : Nat) = 1 then 0 else r.val; rw [if_neg (by decide)]
      | ⟨1, _⟩ => by show 0 = if (1 : Nat) = 1 then 0 else b.val; rw [if_pos rfl]),
    sitofp_eq_word]
  rfl

/-! ## Layout: broadcasts, the lane sum, the concatenation -/

/-- The bias row [1,256] spread over the 2000 rows: entry (r, h) is the row's entry h. -/
theorem bcast_row_apply (y : FVec Ideal S1x256 .f32) (r : Fin 2000) (h : Fin 256) :
    broadcastTo S2000x256 y broadcasts_S1x256_S2000x256 (ix2 r h) = y (ix2 0 h) :=
  broadcastTo_apply y broadcasts_S1x256_S2000x256 (ix2 r h) (ix2 0 h) (fun a => match a with
    | ⟨0, _⟩ => by show 0 = if (1 : Nat) = 1 then 0 else r.val; rw [if_pos rfl]
    | ⟨1, _⟩ => by show h.val = if (256 : Nat) = 1 then 0 else h.val; rw [if_neg (by decide)])

/-- The single bias entry [1,1] spread over the 2000 rows. -/
theorem bcast_one_apply (y : FVec Ideal S1x1 .f32) (r : Fin 2000) (c : Fin 1) :
    broadcastTo S2000x1 y broadcasts_S1x1_S2000x1 (ix2 r c) = y (ix2 0 0) :=
  broadcastTo_apply y broadcasts_S1x1_S2000x1 (ix2 r c) (ix2 0 0) (fun a => match a with
    | ⟨0, _⟩ => by show 0 = if (1 : Nat) = 1 then 0 else r.val; rw [if_pos rfl]
    | ⟨1, _⟩ => by show 0 = if (1 : Nat) = 1 then 0 else c.val; rw [if_pos rfl])

/-- The charge column [2000,1] spread over the five moment columns: entry (r, k) is the column's entry r. -/
theorem bcast_col_apply (y : FVec Ideal S2000x1 .f32) (r : Fin 2000) (k : Fin 5) :
    broadcastTo S2000x5 y broadcasts_S2000x1_S2000x5 (ix2 r k) = y (ix2 r 0) :=
  broadcastTo_apply y broadcasts_S2000x1_S2000x5 (ix2 r k) (ix2 r 0) (fun a => match a with
    | ⟨0, _⟩ => by show r.val = if (2000 : Nat) = 1 then 0 else r.val; rw [if_neg (by decide)]
    | ⟨1, _⟩ => by show 0 = if (1 : Nat) = 1 then 0 else k.val; rw [if_pos rfl])

/-- The sum along the three lanes of a [2000,3] block, viewed as a column: entry (r, c) sums row r. -/
theorem lanesum_apply (y : FVec Ideal S2000x3 .f32) (r : Fin 2000) (c : Fin 1) :
    shapeCast S2000x1 (multiReduction (F := Ideal) .add [1] S2000 y 0x00000000#32 reduces_S2000x3_S2000 (.inl rfl) rfl)
        shapeCasts_S2000_S2000x1 (ix2 r c) = ∑ d : Fin 3, y (ix2 r d) := by
  refine (shapeCast_apply _ shapeCasts_S2000_S2000x1 (ix2 r c) (ix1 r) ?_).trans ?_
  · rw [Shape.rowMajor_val_one, Shape.rowMajor_val_two]
    show r.val = r.val * 1 + c.val
    omega
  · refine (Ideal.multiReduction_add_single y _ reduces_S2000x3_S2000 _ _ (ix1 r)).trans ?_
    refine Finset.sum_congr rfl fun d _ => ?_
    exact congrArg y (funext fun a => Fin.ext (by match a with | ⟨0, _⟩ => rfl | ⟨1, _⟩ => rfl))

section Concat
variable (u : FVec Ideal S2000x1 .f32) (p : FVec Ideal S2000x3 .f32) (n : FVec Ideal S2000x1 .f32) (r : Fin 2000)

/-- Column 0 of the concatenation [2000,1] | [2000,3] | [2000,1] is the first piece. -/
theorem concat_first_apply :
    concatenate S2000x5 1 [⟨S2000x1, u⟩, ⟨S2000x3, p⟩, ⟨S2000x1, n⟩] concatenates_S2000x1_S2000x3_S2000x1_S2000x5_d1
        (ix2 r (0 : Fin 5)) = u (ix2 r 0) :=
  concatenate_apply_piece (1 : Fin S2000x5.rank) ([⟨S2000x1, u⟩, ⟨S2000x3, p⟩, ⟨S2000x1, n⟩] : List ((s : Shape) × (s.Idx → EReal)))
    concatenates_S2000x1_S2000x3_S2000x1_S2000x5_d1 (ix2 r (0 : Fin 5))
    0 (by show (0 : Nat) < 3; decide) S2000x1 u rfl rfl 0 rfl (ix2 r 0)
    (fun b hb => match b, hb with
      | ⟨0, _⟩, _ => rfl
      | ⟨1, _⟩, hb => absurd rfl hb)
    rfl

/-- Columns 1, 2, 3 are the second piece's columns 0, 1, 2. -/
theorem concat_mid_apply (d : Fin 3) :
    concatenate S2000x5 1 [⟨S2000x1, u⟩, ⟨S2000x3, p⟩, ⟨S2000x1, n⟩] concatenates_S2000x1_S2000x3_S2000x1_S2000x5_d1
        (ix2 r (⟨d.val + 1, by omega⟩ : Fin 5)) = p (ix2 r d) :=
  concatenate_apply_piece (1 : Fin S2000x5.rank) ([⟨S2000x1, u⟩, ⟨S2000x3, p⟩, ⟨S2000x1, n⟩] : List ((s : Shape) × (s.Idx → EReal)))
    concatenates_S2000x1_S2000x3_S2000x1_S2000x5_d1 (ix2 r (⟨d.val + 1, by omega⟩ : Fin 5))
    1 (by show (1 : Nat) < 3; decide) S2000x3 p rfl rfl 1 rfl (ix2 r d)
    (fun b hb => match b, hb with
      | ⟨0, _⟩, _ => rfl
      | ⟨1, _⟩, hb => absurd rfl hb)
    (Nat.add_comm 1 d.val)

/-- Column 4 is the third piece. -/
theorem concat_last_apply :
    concatenate S2000x5 1 [⟨S2000x1, u⟩, ⟨S2000x3, p⟩, ⟨S2000x1, n⟩] concatenates_S2000x1_S2000x3_S2000x1_S2000x5_d1
        (ix2 r (4 : Fin 5)) = n (ix2 r 0) :=
  concatenate_apply_piece (1 : Fin S2000x5.rank) ([⟨S2000x1, u⟩, ⟨S2000x3, p⟩, ⟨S2000x1, n⟩] : List ((s : Shape) × (s.Idx → EReal)))
    concatenates_S2000x1_S2000x3_S2000x1_S2000x5_d1 (ix2 r (4 : Fin 5))
    2 (by show (2 : Nat) < 3; decide) S2000x1 n rfl rfl 4 rfl (ix2 r 0)
    (fun b hb => match b, hb with
      | ⟨0, _⟩, _ => rfl
      | ⟨1, _⟩, hb => absurd rfl hb)
    rfl

end Concat

/-! ## The moment rows -/

/-- The logistic function over a block, at an entry. -/
theorem logistic_apply {s : Shape} (y : FVec Ideal s .f32) (i : s.Idx) : logistic y i = Ideal.logistic (y i) := rfl

/-- The five moment features of row r's position: column k of the concatenation of the constant one, the
    position block and the column of squared norms. -/
theorem feat_apply (x1 : Vec Ideal S2000x3 .f32) (r : Fin 2000) (k : Fin 5) :
    concatenate S2000x5 1
        [⟨S2000x1, broadcast S2000x1 (Scalar.ofBits (F := Ideal) .f32 0x3F800000#32)⟩, ⟨S2000x3, x1⟩,
         ⟨S2000x1, shapeCast S2000x1 (multiReduction (F := Ideal) .add [1] S2000 (mulf x1 x1) 0x00000000#32
            reduces_S2000x3_S2000 (.inl rfl) rfl) shapeCasts_S2000_S2000x1⟩]
        concatenates_S2000x1_S2000x3_S2000x1_S2000x5_d1 (ix2 r k)
      = featRow (fun d => x1 (ix2 r d)) k := by
  match k with
  | ⟨0, _⟩ =>
    refine (concat_first_apply _ _ _ r).trans ?_
    exact ofBits_one_f32
  | ⟨1, _⟩ => exact concat_mid_apply _ _ _ r 0
  | ⟨2, _⟩ => exact concat_mid_apply _ _ _ r 1
  | ⟨3, _⟩ => exact concat_mid_apply _ _ _ r 2
  | ⟨4, _⟩ =>
    refine (concat_last_apply _ _ _ r).trans ?_
    exact lanesum_apply (mulf x1 x1) r 0

/-- Row r of the moment block: the network's charge of row r times the five features of row r's position. -/
theorem pay4_apply (x2 : Vec Ideal S2000x512 .f32) (x3 : Vec Ideal S512x256 .bf16) (x4 : Vec Ideal S1x256 .f32)
    (x5 : Vec Ideal S256x1 .bf16) (x6 : Vec Ideal S1x1 .f32) (x1 : Vec Ideal S2000x3 .f32) (r : Fin 2000) (k : Fin 5) :
    k0_pay4 (F := Ideal) x2 x3 x4 x5 x6 x1 (ix2 r k)
      = chargeRow (fun f => x2 (ix2 r f)) (fun f h => x3 (ix2 f h)) (fun h => x4 (ix2 0 h)) (fun h => x5 (ix2 h 0))
          (x6 (ix2 0 0)) * featRow (fun d => x1 (ix2 r d)) k := by
  unfold k0_pay4
  simp only [mulf_apply, addf_apply, truncf_apply, logistic_apply, shapeCast_self, bcast_col_apply, bcast_one_apply,
    bcast_row_apply, mm1_apply, mm2_apply]
  exact congrArg₂ (· * ·) rfl (feat_apply x1 r k)

/-! ## The two stored blocks -/

/-- The accumulating step: entry (b, k) of the stored block is the loaded entry plus the tile's share of moment k
    of graph b. -/
theorem pay1_apply (x0 : Vec Ideal S2000x1 .i32) (x1 : Vec Ideal S2000x3 .f32) (x2 : Vec Ideal S2000x512 .f32)
    (x3 : Vec Ideal S512x256 .bf16) (x4 : Vec Ideal S1x256 .f32) (x5 : Vec Ideal S256x1 .bf16) (x6 : Vec Ideal S1x1 .f32)
    (acc : Vec Ideal S1x128x5 .f32) (b : Fin 128) (k : Fin 5) :
    k0_pay1 (F := Ideal) (k0_pay3 x0) (k0_pay4 x2 x3 x4 x5 x6 x1) acc (ix3 0 b k)
      = acc (ix3 0 b k) + tileAdd x0 x1 x2 x3 x4 x5 x6 b k := by
  unfold k0_pay1
  refine (shapeCast_ab_1ab_apply _ shapeCasts_S128x5_S1x128x5 0 b k).trans ?_
  rw [addf_apply, shapeCast_1ab_ab_apply acc shapeCasts_S1x128x5_S128x5 b k, mm3_apply]
  unfold tileAdd
  refine congrArg (acc (ix3 0 b k) + ·) (Finset.sum_congr rfl fun r _ => ?_)
  rw [pay3_apply, pay4_apply]

/-- The initial block is zero everywhere. -/
theorem pay2_apply (j : S1x128x5.Idx) : k0_pay2 (F := Ideal) j = 0 := by
  show Ideal.ofBits .f32 0x00000000#32 = 0
  exact Ideal.ofBits_zero_f32

end Cert.KernelIdeal.Payload

end
-- ==== Proof.MomentsLaw.lean ====
/-
  The laws of the moment sums.

  Four facts about the sums of the shared vocabulary.  A graph word that reads, signed, as a graph number b below 128
  is the word of b itself, looks up row b of the mass-centre table, and is a member of graph b and of no other.  A sum
  over the 100000 nodes may be taken tile by tile, 2000 nodes at a time, the fifty tiles themselves counted in two
  halves of twenty-five.  The charge of a node with real features and real weights is a real number.  And for real
  charges, positions and mass centres, the five moments combined with the mass centre give the sum of the charge times
  the squared distance to it: |p - c|^2 = |p|^2 - 2 c.p + |c|^2, summed with weights.
-/
import proofs.«430685_j27625229648413_2_alg».proof.Proof.Moments
import Mathlib.Data.EReal.Basic
import Mathlib.Data.EReal.Operations
import Mathlib.Data.Fintype.BigOperators
import Mathlib.Algebra.BigOperators.Fin
import Mathlib.Algebra.BigOperators.Ring.Finset
import Mathlib.Logic.Equiv.Fin.Basic
import Mathlib.Tactic.Ring

noncomputable section

namespace Cert.Moments

open scoped BigOperators

/-! ## Graph words -/

/-- A 32-bit word is the word of the number b, below 128, exactly when it reads b as a signed integer: b is far below
    2^31, so the signed and the unsigned readings of its word agree. -/
theorem word_eq_iff_toInt (w : BitVec 32) (b : Fin 128) : w = BitVec.ofNat 32 b.val ↔ w.toInt = (b.val : ℤ) := by
  have hb := b.isLt
  have hw := w.isLt
  constructor
  · intro h
    subst h
    rw [BitVec.toInt_eq_toNat_cond, BitVec.toNat_ofNat]
    split <;> omega
  · intro h
    apply BitVec.eq_of_toNat_eq
    rw [BitVec.toNat_ofNat]
    rw [BitVec.toInt_eq_toNat_cond] at h
    split at h <;> omega

/-- A word that reads b is not negative, so nothing is added to it, and b is already inside [0, 127]. -/
theorem lookupRow_of_toInt (w : BitVec 32) (b : Fin 128) (h : w.toInt = (b.val : ℤ)) : lookupRow w = b := by
  have hb := b.isLt
  have hneg : ¬ w.toInt < 0 := by omega
  apply Fin.ext
  show min (if w.toInt < 0 then w + 128#32 else w).toInt.toNat 127 = b.val
  rw [if_neg hneg, h]
  omega

/-- Membership, decided on the signed reading of the word. -/
theorem member_eq_ite (w : BitVec 32) (b : Fin 128) : member w b = if w.toInt = (b.val : ℤ) then 1 else 0 := by
  unfold member
  by_cases h : w.toInt = (b.val : ℤ)
  · rw [if_pos h, if_pos ((word_eq_iff_toInt w b).2 h)]
  · rw [if_neg h, if_neg (fun h' => h ((word_eq_iff_toInt w b).1 h'))]

/-! ## Summing tile by tile -/

/-- A sum over a * b consecutive indices, taken as a blocks of b: index r + b * n is entry r of block n. -/
theorem sum_fin_mul {M : Type*} [AddCommMonoid M] (a b : ℕ) (f : Fin (a * b) → M) :
    ∑ i : Fin (a * b), f i = ∑ n : Fin a, ∑ r : Fin b, f (finProdFinEquiv (n, r)) := by
  rw [← (finProdFinEquiv (m := a) (n := b)).sum_comp f, Fintype.sum_prod_type]

/-- The 100000 nodes are fifty tiles of 2000. -/
theorem sum_nodes_eq_sum_tiles {M : Type*} [AddCommMonoid M] (f : Fin 100000 → M) :
    ∑ i : Fin 100000, f i = ∑ n : Fin 50, ∑ r : Fin 2000, f (node n.val r) := by
  refine (sum_fin_mul 50 2000 f).trans ?_
  refine Finset.sum_congr rfl fun n _ => Finset.sum_congr rfl fun r _ => congrArg f (Fin.ext ?_)
  have hn := n.isLt
  have hr := r.isLt
  simp only [finProdFinEquiv_apply_val, node]
  omega

/-- Fifty tiles are two halves of twenty-five: tile 25 c + s is tile s of half c. -/
theorem sum_fifty_eq_halves {M : Type*} [AddCommMonoid M] (G : ℕ → M) :
    ∑ n : Fin 50, G n.val = ∑ c : Fin 2, ∑ s : Fin 25, G (25 * c.val + s.val) := by
  refine (sum_fin_mul 2 25 fun n : Fin 50 => G n.val).trans ?_
  refine Finset.sum_congr rfl fun c _ => Finset.sum_congr rfl fun s _ => congrArg G ?_
  simp only [finProdFinEquiv_apply_val]
  omega

/-- A sum over all nodes, taken half by half, tile by tile, row by row. -/
theorem sum_tiles {M : Type*} [AddCommMonoid M] (f : Fin 100000 → M) :
    ∑ c : Fin 2, ∑ s ∈ Finset.range 25, ∑ r : Fin 2000, f (node (25 * c.val + s) r) = ∑ i : Fin 100000, f i := by
  rw [sum_nodes_eq_sum_tiles f, sum_fifty_eq_halves fun n => ∑ r : Fin 2000, f (node n r)]
  refine Finset.sum_congr rfl fun c _ => ?_
  rw [Finset.sum_range]

/-- A moment of a graph is the sum of the tiles' shares of it. -/
theorem moment_eq_tiles (q : Fin 100000 → EReal) (p : Fin 100000 → Fin 3 → EReal) (g : Fin 100000 → BitVec 32)
    (b : Fin 128) (k : Fin 5) :
    ∑ c : Fin 2, ∑ s ∈ Finset.range 25, tileMoment q p g (25 * c.val + s) b k = moment q p g b k :=
  sum_tiles fun i => member (g i) b * (q i * featRow (p i) k)

/-! ## Real values -/

theorem isReal_coe (r : ℝ) : IsReal (r : EReal) := ⟨r, rfl⟩

theorem isReal_zero : IsReal 0 := ⟨0, rfl⟩

theorem isReal_one : IsReal 1 := ⟨1, rfl⟩

/-- The sum of two reals is a real. -/
theorem isReal_add {x y : EReal} (hx : IsReal x) (hy : IsReal y) : IsReal (x + y) := by
  obtain ⟨a, rfl⟩ := hx
  obtain ⟨c, rfl⟩ := hy
  exact ⟨a + c, (EReal.coe_add a c).symm⟩

/-- The product of two reals is a real. -/
theorem isReal_mul {x y : EReal} (hx : IsReal x) (hy : IsReal y) : IsReal (x * y) := by
  obtain ⟨a, rfl⟩ := hx
  obtain ⟨c, rfl⟩ := hy
  exact ⟨a * c, (EReal.coe_mul a c).symm⟩

/-- The difference of two reals is a real. -/
theorem isReal_sub {x y : EReal} (hx : IsReal x) (hy : IsReal y) : IsReal (x - y) := by
  obtain ⟨a, rfl⟩ := hx
  obtain ⟨c, rfl⟩ := hy
  exact ⟨a - c, (EReal.coe_sub a c).symm⟩

/-- A finite sum of reals, read as extended reals term by term. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

/-- The logistic function of a real is a real. -/
theorem isReal_logistic {x : EReal} (hx : IsReal x) : IsReal (Idealize.ShloMosaic.Ideal.logistic x) := by
  obtain ⟨a, rfl⟩ := hx
  exact ⟨_, Idealize.ShloMosaic.Ideal.logistic_coe a⟩

/-- x times the logistic function of x, for a real x, is a real. -/
theorem isReal_silu {x : EReal} (hx : IsReal x) : IsReal (silu x) :=
  isReal_mul hx (isReal_logistic hx)

/-- The charge of a node is a real when its features, the weights and the biases are. -/
theorem chargeRow_isReal {x : Fin 512 → EReal} {w1 : Fin 512 → Fin 256 → EReal} {b1 : Fin 256 → EReal}
    {w2 : Fin 256 → EReal} {b2 : EReal}
    (hx : ∀ f, IsReal (x f)) (hw1 : ∀ f h, IsReal (w1 f h)) (hb1 : ∀ h, IsReal (b1 h)) (hw2 : ∀ h, IsReal (w2 h))
    (hb2 : IsReal b2) : IsReal (chargeRow x w1 b1 w2 b2) := by
  unfold chargeRow
  refine isReal_add (isReal_sum _ _ fun h _ => isReal_mul (isReal_silu (isReal_add ?_ (hb1 h))) (hw2 h)) hb2
  exact isReal_sum _ _ fun f _ => isReal_mul (hx f) (hw1 f h)

/-! ## The moments combined with the mass centre -/

theorem featRow_zero (p : Fin 3 → EReal) : featRow p 0 = 1 := rfl

theorem featRow_four (p : Fin 3 → EReal) : featRow p 4 = ∑ d : Fin 3, p d * p d := rfl

/-- Feature d + 1 is coordinate d. -/
theorem featRow_succ (p : Fin 3 → EReal) (d : Fin 3) : featRow p ⟨d.val + 1, by omega⟩ = p d := by
  fin_cases d <;> rfl

theorem coe_two : ((2 : ℝ) : EReal) = 2 := rfl

/-- A weighted sum of real products, read as extended reals factor by factor. -/
theorem coe_sum_mul_mul (m Q F : Fin 100000 → ℝ) :
    ∑ i, (m i : EReal) * ((Q i : EReal) * (F i : EReal)) = ((∑ i, m i * (Q i * F i) : ℝ) : EReal) := by
  rw [coe_sum]
  exact Finset.sum_congr rfl fun i _ => by rw [EReal.coe_mul, EReal.coe_mul]

/-- The law in the reals: with weights m i q i, the sums of |p|^2, of p and of 1 combine with c into the sum of
    |p - c|^2. -/
theorem combine_real (m Q : Fin 100000 → ℝ) (P : Fin 100000 → Fin 3 → ℝ) (C : Fin 3 → ℝ) :
    ((∑ i, m i * (Q i * ∑ d : Fin 3, P i d * P i d)) - 2 * ∑ d : Fin 3, C d * ∑ i, m i * (Q i * P i d))
        + (∑ d : Fin 3, C d * C d) * ∑ i, m i * (Q i * 1)
      = ∑ i, m i * (Q i * ∑ d : Fin 3, (P i d - C d) * (P i d - C d)) := by
  simp only [Fin.sum_univ_three, Finset.mul_sum, ← Finset.sum_add_distrib, ← Finset.sum_sub_distrib]
  exact Finset.sum_congr rfl fun i _ => by ring

/-- The law for real charges, positions and a real centre, with membership as the weight. -/
theorem combine_moment_coe (Q : Fin 100000 → ℝ) (P : Fin 100000 → Fin 3 → ℝ) (g : Fin 100000 → BitVec 32)
    (C : Fin 3 → ℝ) (b : Fin 128) :
    combine (moment (fun i => (Q i : EReal)) (fun i d => (P i d : EReal)) g b) (fun d => (C d : EReal))
      = ∑ i, member (g i) b * ((Q i : EReal) * dist2 (fun d => (P i d : EReal)) (fun d => (C d : EReal))) := by
  -- membership is the real number 1 or 0
  obtain ⟨m, hm⟩ : ∃ m : Fin 100000 → ℝ, ∀ i, member (g i) b = (m i : EReal) := by
    refine ⟨fun i => if (g i).toInt = (b.val : ℤ) then 1 else 0, fun i => ?_⟩
    rw [member_eq_ite]
    by_cases h : (g i).toInt = (b.val : ℤ)
    · simp only [if_pos h, EReal.coe_one]
    · simp only [if_neg h, EReal.coe_zero]
  have h0 : moment (fun i => (Q i : EReal)) (fun i d => (P i d : EReal)) g b 0
      = ((∑ i, m i * (Q i * 1) : ℝ) : EReal) := by
    rw [← coe_sum_mul_mul]
    exact Finset.sum_congr rfl fun i _ => by rw [hm, featRow_zero, EReal.coe_one]
  have h4 : moment (fun i => (Q i : EReal)) (fun i d => (P i d : EReal)) g b 4
      = ((∑ i, m i * (Q i * ∑ d : Fin 3, P i d * P i d) : ℝ) : EReal) := by
    rw [← coe_sum_mul_mul]
    refine Finset.sum_congr rfl fun i _ => ?_
    rw [hm, featRow_four, coe_sum]
    simp only [EReal.coe_mul]
  have hd : ∀ d : Fin 3, moment (fun i => (Q i : EReal)) (fun i d => (P i d : EReal)) g b ⟨d.val + 1, by omega⟩
      = ((∑ i, m i * (Q i * P i d) : ℝ) : EReal) := by
    intro d
    rw [← coe_sum_mul_mul]
    exact Finset.sum_congr rfl fun i _ => by rw [hm, featRow_succ]
  have hR : ∑ i, member (g i) b * ((Q i : EReal) * dist2 (fun d => (P i d : EReal)) (fun d => (C d : EReal)))
      = ((∑ i, m i * (Q i * ∑ d : Fin 3, (P i d - C d) * (P i d - C d)) : ℝ) : EReal) := by
    rw [← coe_sum_mul_mul]
    refine Finset.sum_congr rfl fun i _ => ?_
    rw [hm, dist2, coe_sum]
    simp only [EReal.coe_mul, EReal.coe_sub]
  rw [hR, ← combine_real, combine, h0, h4]
  simp only [hd, EReal.coe_add, EReal.coe_sub, EReal.coe_mul, coe_sum, coe_two]

/-- THE LAW: the five moments of graph b, combined with its mass centre, are the second moment about it. -/
theorem combine_moment (q : Fin 100000 → EReal) (p : Fin 100000 → Fin 3 → EReal) (g : Fin 100000 → BitVec 32)
    (mc : Fin 128 → Fin 3 → EReal) (row : Fin 100000 → Fin 128)
    (hq : ∀ i, IsReal (q i)) (hp : ∀ i d, IsReal (p i d)) (hmc : ∀ b d, IsReal (mc b d))
    (hrow : ∀ i (b : Fin 128), (g i).toInt = (b.val : ℤ) → row i = b) (b : Fin 128) :
    combine (moment q p g b) (mc b) = secondMoment q p g mc row b := by
  choose Q hQ using hq
  choose P hP using hp
  choose C hC using hmc
  obtain rfl : q = fun i => (Q i : EReal) := funext hQ
  obtain rfl : p = fun i d => (P i d : EReal) := funext fun i => funext fun d => hP i d
  have hcb : mc b = fun d => (C b d : EReal) := funext fun d => hC b d
  rw [hcb, combine_moment_coe Q P g (C b) b, ← hcb]
  unfold secondMoment
  refine Finset.sum_congr rfl fun i _ => ?_
  rw [member_eq_ite]
  by_cases h : (g i).toInt = (b.val : ℤ)
  · rw [if_pos h, if_pos h, one_mul, hrow i b h]
  · rw [if_neg h, if_neg h, zero_mul]

end Cert.Moments

end
-- ==== Proof.KernelValue.lean ====
/-
  The kernel program's result.

  After the region the table holds, per core, graph and moment, the sum of that core's tiles' addends; an addend is the
  tile's share of the graph's moment over the argument arrays; the two cores' tiles are all fifty tiles, that is all the
  nodes.  So the table summed over the cores is the graph's moment, and the operations after the region combine the
  five moments with the graph's mass centre.  For finite inputs that combination is the graph's second moment of the
  charge about its mass centre: |p - c|^2 = |p|^2 - 2 c.p + |c|^2, summed against the charge.
-/
import proofs.«430685_j27625229648413_2_alg».proof.Proof.KernelFinal
import proofs.«430685_j27625229648413_2_alg».proof.Proof.KernelBlocks
import proofs.«430685_j27625229648413_2_alg».proof.Proof.KernelTail
import proofs.«430685_j27625229648413_2_alg».proof.Proof.KernelPayload
import proofs.«430685_j27625229648413_2_alg».proof.Proof.MomentsLaw

set_option maxRecDepth 16384

noncomputable section

namespace Cert.KernelIdeal.Result

open Cert.KernelIdeal Cert.KernelIdeal.Gen Cert.KernelIdeal.Acc Cert.KernelIdeal.Blocks Cert.KernelIdeal.Final Cert.Moments
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The charge of node i from the argument arrays. -/
abbrev charge (c : Dev nD) : Fin 100000 → EReal :=
  chargeOf (m ((c : Thread nD τ).loc main_arg2)) (m ((c : Thread nD τ).loc main_arg5)) (m ((c : Thread nD τ).loc main_arg6))
    (m ((c : Thread nD τ).loc main_arg7)) (m ((c : Thread nD τ).loc main_arg8))

/-- The table summed over the two cores is the graph's moment. -/
theorem table_moment (c : Dev nD) (b : Fin 128) (k : Fin 5) :
    ∑ c' : Fin 2, table m c (ix3 c' b k)
      = moment (charge m c) (posOf (m ((c : Thread nD τ).loc main_arg0))) (wordOf (m ((c : Thread nD τ).loc main_arg4))) b k := by
  rw [← moment_eq_tiles]
  refine Finset.sum_congr rfl fun c' _ => ?_
  rw [table_apply]
  unfold coreSum
  refine Finset.sum_congr rfl fun s hs => ?_
  have hs' := Finset.mem_range.mp hs
  have hc' := c'.isLt
  exact addAt_eq m c (25 * c'.val + s) (by omega) b k

/-- The two cores' tables summed and combined with graph b's mass centre: graph b's second moment of the charge about
    the mass centre of the row each of its nodes looks up, for finite inputs. -/
theorem combine_table (c : Dev nD)
    (hpos : ∀ j, IsReal (m ((c : Thread nD τ).loc main_arg0) j)) (hmc : ∀ j, IsReal (m ((c : Thread nD τ).loc main_arg1) j))
    (hfeat : ∀ j, IsReal (m ((c : Thread nD τ).loc main_arg2) j)) (hw1 : ∀ j, IsReal (m ((c : Thread nD τ).loc main_arg5) j))
    (hb1 : ∀ j, IsReal (m ((c : Thread nD τ).loc main_arg6) j)) (hw2 : ∀ j, IsReal (m ((c : Thread nD τ).loc main_arg7) j))
    (hb2 : ∀ j, IsReal (m ((c : Thread nD τ).loc main_arg8) j)) (b : Fin 128) :
    combine (fun k => ∑ c' : Fin 2, Tail.outArr m c (ix3 c' b k)) (fun d => m ((c : Thread nD τ).loc main_arg1) (ix2 b d))
      = secondMoment (charge m c) (posOf (m ((c : Thread nD τ).loc main_arg0))) (wordOf (m ((c : Thread nD τ).loc main_arg4)))
          (centreOf (m ((c : Thread nD τ).loc main_arg1))) (fun i => lookupRow (wordOf (m ((c : Thread nD τ).loc main_arg4)) i)) b := by
  have hfin : Tail.outArr m c = table m c := final m Payload.pay1_apply Payload.pay2_apply c
  rw [hfin]
  simp only [table_moment]
  exact combine_moment (charge m c) (posOf (m ((c : Thread nD τ).loc main_arg0))) (wordOf (m ((c : Thread nD τ).loc main_arg4)))
    (centreOf (m ((c : Thread nD τ).loc main_arg1))) (fun i => lookupRow (wordOf (m ((c : Thread nD τ).loc main_arg4)) i))
    (fun i => chargeRow_isReal (fun f => hfeat _) (fun f h => hw1 _) (fun h => hb1 _) (fun h => hw2 _) (hb2 _))
    (fun i d => hpos _) (fun b d => hmc _) (fun i b h => lookupRow_of_toInt _ b h) b

/-- The result buffer after the operations that follow the region, for finite inputs. -/
theorem out_value (c : Dev nD)
    (hpos : ∀ j, IsReal (m ((c : Thread nD τ).loc main_arg0) j)) (hmc : ∀ j, IsReal (m ((c : Thread nD τ).loc main_arg1) j))
    (hfeat : ∀ j, IsReal (m ((c : Thread nD τ).loc main_arg2) j)) (hw1 : ∀ j, IsReal (m ((c : Thread nD τ).loc main_arg5) j))
    (hb1 : ∀ j, IsReal (m ((c : Thread nD τ).loc main_arg6) j)) (hw2 : ∀ j, IsReal (m ((c : Thread nD τ).loc main_arg7) j))
    (hb2 : ∀ j, IsReal (m ((c : Thread nD τ).loc main_arg8) j)) :
    Pipeline.afterTail₀ cfgs (dats (F := Ideal) m) 0 (V0 m) [hostOps1] c main_v20
      = result (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg6))
          (m ((c : Thread nD τ).loc main_arg7)) (m ((c : Thread nD τ).loc main_arg8)) := by
  rw [Tail.tail_value m c]
  funext j
  exact combine_table m c hpos hmc hfeat hw1 hb1 hw2 hb2 (j 0)

/-- The run: every weakly fair execution ends with the result buffer at the common result function of the argument
    arrays and the arguments as they were. -/
theorem run
    (hpos : ∀ (c : Dev nD) j, IsReal (m ((c : Thread nD τ).loc main_arg0) j))
    (hmc : ∀ (c : Dev nD) j, IsReal (m ((c : Thread nD τ).loc main_arg1) j))
    (hfeat : ∀ (c : Dev nD) j, IsReal (m ((c : Thread nD τ).loc main_arg2) j))
    (hw1 : ∀ (c : Dev nD) j, IsReal (m ((c : Thread nD τ).loc main_arg5) j))
    (hb1 : ∀ (c : Dev nD) j, IsReal (m ((c : Thread nD τ).loc main_arg6) j))
    (hw2 : ∀ (c : Dev nD) j, IsReal (m ((c : Thread nD τ).loc main_arg7) j))
    (hb2 : ∀ (c : Dev nD) j, IsReal (m ((c : Thread nD τ).loc main_arg8) j)) :
    θ_run defs (onTc (τ := τ) (main (F := Ideal))) ⟨m, fun _ => 0, ρ⟩ (fun r => ∀ c : Dev nD,
      r.2.mem ((c.tc : Thread nD τ).loc main_v20)
        = result (m ((c.tc : Thread nD τ).loc main_arg0)) (m ((c.tc : Thread nD τ).loc main_arg1)) (m ((c.tc : Thread nD τ).loc main_arg2))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v20 (Pipeline.mem_restRefs_of main_v20 (by decide) (by decide))).trans
        (out_value m c (hpos c) (hmc c) (hfeat c) (hw1 c) (hb1 c) (hw2 c) (hb2 c)),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Result

end
-- ==== Proof.LibGatherRows.lean ====
/-
  The host's gather that selects ROWS of a matrix by a column of positions, read at an index.
-/
import Idealize.ShloMosaic.PureOps
import Idealize.ShloMosaic.Lib.ValueIdx

set_option maxRecDepth 16384

noncomputable section

namespace Cert.LibGatherRows

open Idealize.ShloMosaic Idealize.ShloMosaic.ValueIdx

/-- An entry of a one-element list is that element, whatever the position. -/
private theorem getElem_of_eq_singleton {β : Type} {l : List β} {x : β} (hl : l = [x]) (k : Nat) (hk : k < l.length) :
    l[k]'hk = x := by
  subst hl
  have hk0 : k = 0 := by simpa using hk
  subst hk0
  rfl

/-- SELECTING ROWS. A gather over an [N, C] matrix whose start indices are an [E, 1] column of positions, the
    columns kept whole (axis 1 an offset axis of slice size C) and axis 0 collapsed and start-indexed: entry (e, j)
    is the matrix at the row position e's start index names, read signed and clamped into [0, N - 1], and column j. -/
theorem gather_rows {α : Type} {N C E w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (j : Fin C) (hN : 0 < N) :
    Host.gather d x idx (ix2 e j)
      = x (ix2 ⟨min (idx (ix2 e (0 : Fin 1))).toInt.toNat (N - 1), by omega⟩ j) := by
  -- the axes kept on each side: the operand's one offset axis is 1, the result's one batch axis is 0
  have hsK : d.sKept = [1] := by
    show (List.finRange 2).filter (· ∉ d.collapsedSliceDims ++ d.operandBatchingDims) = [1]
    rw [hcoll, hob]; rfl
  have hbD : d.batchDims = [0] := by
    show (List.finRange 2).filter (· ∉ d.offsetDims) = [0]
    rw [hoff]; rfl
  have hlen : d.startIndexMap.length = 1 := by rw [hsim]; rfl
  -- the start-index entry result position (e, j) reads is row e of the column of positions
  have hsi : ∀ c, d.siIdx (ix2 e j) c = ix2 e (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, collapsed and start-indexed: the clamped start index alone
    have hb : (⟨0, h0⟩ : Fin 2) ∉ d.operandBatchingDims := by rw [hob]; exact List.not_mem_nil
    have hk : (⟨0, h0⟩ : Fin 2) ∉ d.sKept := by
      rw [hsK, List.mem_singleton]; intro e; exact Nat.zero_ne_one (congrArg Fin.val e)
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl
  | ⟨1, h1⟩ =>
    -- axis 1, the offset axis: no start index, no batch coordinate, the result's column
    have hb : (⟨1, h1⟩ : Fin 2) ∉ d.operandBatchingDims := by rw [hob]; exact List.not_mem_nil
    have hm : (⟨1, h1⟩ : Fin 2) ∉ d.startIndexMap := by
      rw [hsim, List.mem_singleton]; intro e; exact Nat.one_ne_zero (congrArg Fin.val e)
    have hk : (⟨1, h1⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl

end Cert.LibGatherRows

end
-- ==== Proof.LibScatterRows.lean ====
/-
  The host's accumulating scatter over the extended reals, read at an index, for the two layouts a segment sum
  prints as: a vector of N sums fed by E scalars, and an N x C table of sums fed by E rows of C entries; in both
  the scatter indices are an E x 1 column naming, per update, the operand's position on axis 0. An update lands at
  the position its index names, read signed; an index outside [0, N) drops its update.
-/
import Idealize.ShloMosaic.PureOps.Ideal
import Idealize.ShloMosaic.PureOps.Contract
import Idealize.ShloMosaic.Lib.ValueIdx

set_option maxRecDepth 16384

noncomputable section

namespace Cert.LibScatterRows

open Idealize.ShloMosaic Idealize.ShloMosaic.ValueIdx
open scoped BigOperators

/-- An accumulating scatter's update lands at operand index `i` exactly when, on every axis, the window's start plus
    the window coordinate is `i`'s coordinate. -/
private theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have := h a
      omega
    · intro hf
      funext a
      apply Fin.ext
      have := hf a
      show (d.start j idx a + (d.window j a : ℤ)).toNat = (i a).val
      omega
  · rename_i h
    constructor
    · intro hf
      exact absurd hf (by simp)
    · intro hf
      exfalso
      apply h
      intro a
      have := hf a
      have := (i a).isLt
      omega

/-- A rank-1 index set is its one coordinate's range. -/
private def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-! ### The vector layout -/

/-- The vector layout's dimension numbers as a literal record, over any proof that they are well formed. -/
private abbrev litV {N E : ℕ} (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

section Vec
variable {N E w : ℕ} (wf : ScatterDims.WF ⟨1, ![N]⟩ ⟨2, ![E, 1]⟩ ⟨1, ![E]⟩ [] [0] [0] 1)

/-- Update e reads row e of the column of indices. -/
private theorem siIdx_V (j : (⟨1, ![E]⟩ : Shape).Idx) (c : Fin (litV wf).scatterDimsToOperandDims.length) :
    (litV wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- On axis 0 the window starts at the index word, read signed. -/
private theorem start_V0 (j : (⟨1, ![E]⟩ : Shape).Idx) (idx : IVec ⟨2, ![E, 1]⟩ w) :
    (litV wf).start j idx 0 = (idx (ix2 (j 0) (0 : Fin 1))).toInt := by
  unfold ScatterDims.start
  rw [dif_pos (show (0 : Fin (⟨1, ![N]⟩ : Shape).rank) ∈ (litV wf).scatterDimsToOperandDims from List.mem_singleton.mpr rfl)]
  rw [siIdx_V]
  rfl

/-- Axis 0 is inserted: no window coordinate. -/
private theorem window_V0 (j : (⟨1, ![E]⟩ : Shape).Idx) : (litV wf).window j 0 = 0 := by
  unfold ScatterDims.window
  rw [dif_neg (show ¬(0 : Fin (⟨1, ![N]⟩ : Shape).rank) ∈ (litV wf).sKept from List.not_mem_nil)]

/-- Update j lands at position r exactly when its index word, read signed, is r. -/
private theorem lands_V (j : (⟨1, ![E]⟩ : Shape).Idx) (idx : IVec ⟨2, ![E, 1]⟩ w) (r : Fin N) :
    (litV wf).resultIdx? j idx = some (ix1 r) ↔ (idx (ix2 (j 0) (0 : Fin 1))).toInt = (r.val : ℤ) := by
  rw [resultIdx?_eq_some_iff]
  constructor
  · intro h
    have h0 := h 0
    rw [start_V0, window_V0] at h0
    simp only [Nat.cast_zero, add_zero] at h0
    exact h0
  · intro h a
    match a with
    | ⟨0, _⟩ =>
      have e1 := start_V0 wf j idx
      have e2 := window_V0 wf j
      show (litV wf).start j idx 0 + (((litV wf).window j 0 : ℕ) : ℤ) = (r.val : ℤ)
      rw [e1, e2, h]
      simp

end Vec

/-! ### The table layout -/

/-- The table layout's dimension numbers as a literal record, over any proof that they are well formed. -/
private abbrev litT {N C E : ℕ} (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

section Tab
variable {N C E w : ℕ} (wf : ScatterDims.WF ⟨2, ![N, C]⟩ ⟨2, ![E, 1]⟩ ⟨2, ![E, C]⟩ [1] [0] [0] 1)

/-- The row (e, ·) of updates reads row e of the column of indices. -/
private theorem siIdx_T (j : (⟨2, ![E, C]⟩ : Shape).Idx) (c : Fin (litT wf).scatterDimsToOperandDims.length) :
    (litT wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- The operand's one axis that is not inserted is axis 1. -/
private theorem sKept_T : (litT wf).sKept = [1] := rfl

/-- On axis 0 the window starts at the index word, read signed. -/
private theorem start_T0 (j : (⟨2, ![E, C]⟩ : Shape).Idx) (idx : IVec ⟨2, ![E, 1]⟩ w) :
    (litT wf).start j idx 0 = (idx (ix2 (j 0) (0 : Fin 1))).toInt := by
  unfold ScatterDims.start
  rw [dif_pos (show (0 : Fin (⟨2, ![N, C]⟩ : Shape).rank) ∈ (litT wf).scatterDimsToOperandDims from List.mem_singleton.mpr rfl)]
  rw [siIdx_T]
  rfl

/-- Axis 1 is named by no index: its window starts at 0. -/
private theorem start_T1 (j : (⟨2, ![E, C]⟩ : Shape).Idx) (idx : IVec ⟨2, ![E, 1]⟩ w) :
    (litT wf).start j idx 1 = 0 := by
  unfold ScatterDims.start
  rw [dif_neg (show ¬(1 : Fin (⟨2, ![N, C]⟩ : Shape).rank) ∈ (litT wf).scatterDimsToOperandDims by
    rw [List.mem_singleton]; intro e; exact Nat.one_ne_zero (congrArg Fin.val e))]

/-- Axis 0 is inserted: no window coordinate. -/
private theorem window_T0 (j : (⟨2, ![E, C]⟩ : Shape).Idx) : (litT wf).window j 0 = 0 := by
  unfold ScatterDims.window
  rw [dif_neg (show ¬(0 : Fin (⟨2, ![N, C]⟩ : Shape).rank) ∈ (litT wf).sKept by
    rw [sKept_T, List.mem_singleton]; intro e; exact Nat.zero_ne_one (congrArg Fin.val e))]

/-- Axis 1 is the window axis: its window coordinate is the update's column. -/
private theorem window_T1 (j : (⟨2, ![E, C]⟩ : Shape).Idx) : (litT wf).window j 1 = (j 1).val := by
  unfold ScatterDims.window
  rw [dif_pos (show (1 : Fin (⟨2, ![N, C]⟩ : Shape).rank) ∈ (litT wf).sKept by
    rw [sKept_T]; exact List.mem_singleton.mpr rfl)]
  rfl

/-- Update (e, c') lands at (r, c) exactly when e's index word, read signed, is r and c' is c. -/
private theorem lands_T (j : (⟨2, ![E, C]⟩ : Shape).Idx) (idx : IVec ⟨2, ![E, 1]⟩ w) (r : Fin N) (c : Fin C) :
    (litT wf).resultIdx? j idx = some (ix2 r c)
      ↔ (idx (ix2 (j 0) (0 : Fin 1))).toInt = (r.val : ℤ) ∧ (j 1).val = c.val := by
  rw [resultIdx?_eq_some_iff]
  constructor
  · intro h
    have h0 := h 0
    have h1 := h 1
    rw [start_T0, window_T0] at h0
    rw [start_T1, window_T1] at h1
    simp only [Nat.cast_zero, add_zero] at h0
    have h1' : ((j 1).val : ℤ) = (c.val : ℤ) := by
      simp only [zero_add] at h1
      exact h1
    exact ⟨h0, by exact_mod_cast h1'⟩
  · intro h a
    match a with
    | ⟨0, _⟩ =>
      have e1 := start_T0 wf j idx
      have e2 := window_T0 wf j
      show (litT wf).start j idx 0 + (((litT wf).window j 0 : ℕ) : ℤ) = (r.val : ℤ)
      rw [e1, e2, h.1]
      simp
    | ⟨1, _⟩ =>
      have e1 := start_T1 wf j idx
      have e2 := window_T1 wf j
      show (litT wf).start j idx 1 + (((litT wf).window j 1 : ℕ) : ℤ) = (c.val : ℤ)
      rw [e1, e2, h.2]
      simp

end Tab

/-- A VECTOR of sums. Operand [N], scatter indices [E, 1], updates [E]; no window axis, axis 0 inserted and named by
    the index vector's one component. Entry r is the operand's entry plus the sum of the updates whose index is r. -/
theorem scatterAdd_vec_apply {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (r : Fin N) :
    Host.scatterAdd (F := Ideal) d x idx upd (ix1 r)
      = x (ix1 r) + ∑ e : Fin E, if (idx (ix2 e (0 : Fin 1))).toInt = (r.val : ℤ) then upd (ix1 e) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx1]
  refine Finset.sum_congr rfl fun e _ => ?_
  exact if_congr (lands_V wf (ix1 e) idx r) rfl rfl

/-- A TABLE of row sums. Operand [N, C], scatter indices [E, 1], updates [E, C]; the updates' axis 1 is the window
    axis, the operand's axis 0 is inserted and named by the index vector's one component. Entry (r, j) is the
    operand's entry plus the sum, over the updates whose index is r, of their entry j. -/
theorem scatterAdd_rows_apply {N C E w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32) (r : Fin N) (j : Fin C) :
    Host.scatterAdd (F := Ideal) d x idx upd (ix2 r j)
      = x (ix2 r j) + ∑ e : Fin E, if (idx (ix2 e (0 : Fin 1))).toInt = (r.val : ℤ) then upd (ix2 e j) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx2]
  refine Finset.sum_congr rfl fun e _ => ?_
  -- the inner sum over the update's column keeps the one column j
  by_cases he : (idx (ix2 e (0 : Fin 1))).toInt = (r.val : ℤ)
  · rw [if_pos he]
    rw [Finset.sum_eq_single j]
    · exact if_pos ((lands_T wf (ix2 e j) idx r j).mpr ⟨he, rfl⟩)
    · intro c' _ hc'
      exact if_neg fun h => hc' (Fin.ext ((lands_T wf (ix2 e c') idx r j).mp h).2)
    · intro h
      exact absurd (Finset.mem_univ j) h
  · rw [if_neg he]
    refine Finset.sum_eq_zero fun c' _ => ?_
    exact if_neg fun h => he ((lands_T wf (ix2 e c') idx r j).mp h).1

end Cert.LibScatterRows

end
-- ==== Proof.RefValue.lean ====
import proofs.«430685_j27625229648413_2_alg».proof.Proof.Gen.ReferenceIdeal.Read
import proofs.«430685_j27625229648413_2_alg».proof.Proof.LibGatherRows
import proofs.«430685_j27625229648413_2_alg».proof.Proof.LibScatterRows
import proofs.«430685_j27625229648413_2_alg».proof.Proof.Moments
import Idealize.ShloMosaic.Lib.IdealHost

noncomputable section

namespace Cert.ReferenceIdeal.RefValue

open Cert.ReferenceIdeal Cert.ReferenceIdeal.Gen Cert.ReferenceIdeal.Read Cert.Moments Idealize.ShloMosaic
  Idealize.ShloMosaic.ValueIdx
open scoped BigOperators

/-! ## The graph word a node looks its mass centre up with -/

/-- A signed comparison "w < 0" answers 1 exactly when w, read as a signed integer, is negative. -/
theorem cmpi_slt_zero (w : BitVec 32) : IntOp.cmpi .slt w 0#32 = 1#1 ↔ w.toInt < 0 := by
  have h0 : (0#32 : BitVec 32).toInt = 0 := by decide
  show BitVec.ofBool (w.slt 0#32) = 1#1 ↔ _
  unfold BitVec.slt
  rw [h0]
  by_cases h : w.toInt < 0
  · rw [decide_eq_true h]; exact ⟨fun _ => h, fun _ => rfl⟩
  · rw [decide_eq_false h]; exact ⟨fun e => absurd e (by decide), fun e => absurd e h⟩

/-- The word the reference gathers with, at node e: the graph word, with 128 added when it is negative. -/
theorem word_at (x4 : IVec S100000 32) (e : Fin 100000) :
    val_main_v5 (F := Ideal) x4 (ix2 e (0 : Fin 1))
      = if (x4 (ix1 e)).toInt < 0 then x4 (ix1 e) + 128#32 else x4 (ix1 e) := by
  rw [val_main_v5_apply]
  have hi : idx_main_v5 (ix2 e (0 : Fin 1)) = ix1 e := funext fun a => match a with | ⟨0, _⟩ => rfl
  rw [hi, val_main_v4_apply, val_main_v1_apply, val_main_v3_apply, val_main_v0_apply, val_main_v2_apply,
    val_main_c_apply, val_main_c_0_apply]
  exact if_congr (cmpi_slt_zero (x4 (ix1 e))) rfl rfl

/-! ## The mass centre a node subtracts -/

/-- The gathered table at (e, d) is coordinate d of the mass centre of the row node e looks up. -/
theorem gathered_at (x1 : FVec Ideal S128x3 .f32) (x4 : IVec S100000 32) (e : Fin 100000) (d : Fin 3) :
    val_main_v6 (F := Ideal) x1 x4 (ix2 e d) = centreOf x1 (lookupRow (x4 (ix1 e))) d := by
  unfold val_main_v6
  rw [Cert.LibGatherRows.gather_rows (N := 128) (C := 3) (E := 100000) (w := 32)
    gather_S128x3_S100000x1_S100000x3_1_0_n_n_0_1_13 rfl rfl rfl rfl rfl rfl x1 (val_main_v5 (F := Ideal) x4) e d
    (by decide)]
  refine congrArg (fun r => x1 (ix2 r d)) (Fin.ext ?_)
  show min (val_main_v5 (F := Ideal) x4 (ix2 e (0 : Fin 1))).toInt.toNat (128 - 1)
    = min (if (x4 (ix1 e)).toInt < 0 then x4 (ix1 e) + 128#32 else x4 (ix1 e)).toInt.toNat 127
  rw [word_at]

/-! ## The charge column -/

/-- The hidden layer before its activation, at node e and unit h: the affine form of the features. -/
theorem hidden_at (x2 : FVec Ideal S100000x512 .f32) (x5 : FVec Ideal S512x256 .f32) (x6 : FVec Ideal S256 .f32)
    (e : Fin 100000) (h : Fin 256) :
    val_main_v11 (F := Ideal) x2 x5 x6 (ix2 e h) = (∑ f : Fin 512, x2 (ix2 e f) * x5 (ix2 f h)) + x6 (ix1 h) := by
  rw [val_main_v11_apply, val_main_v8_apply, val_main_v10_apply, val_main_v9_apply]
  have hl : ∀ k : Fin 512, lidx_main_v8 (ix2 e h) k = ix2 e k :=
    fun k => funext fun a => match a with | ⟨0, _⟩ => rfl | ⟨1, _⟩ => rfl
  have hr : ∀ k : Fin 512, ridx_main_v8 (ix2 e h) k = ix2 k h :=
    fun k => funext fun a => match a with | ⟨0, _⟩ => rfl | ⟨1, _⟩ => rfl
  have hb : idx_main_v9 (idx_main_v10 (ix2 e h)) = ix1 h := funext fun a => match a with | ⟨0, _⟩ => rfl
  rw [hb]
  show (∑ k : Fin 512, x2 (lidx_main_v8 (ix2 e h) k) * x5 (ridx_main_v8 (ix2 e h) k)) + x6 (ix1 h) = _
  refine congrArg (· + x6 (ix1 h)) (Finset.sum_congr rfl fun k _ => ?_)
  rw [hl k, hr k]

/-- The hidden layer after its activation: the four operations of the called function, negate, exponential, add one,
    divide one by it, are the logistic function, and the product with the argument is the silu. -/
theorem act_at (x2 : FVec Ideal S100000x512 .f32) (x5 : FVec Ideal S512x256 .f32) (x6 : FVec Ideal S256 .f32)
    (i : S100000x256.Idx) :
    val_main_v12 (F := Ideal) x2 x5 x6 i = silu (val_main_v11 (F := Ideal) x2 x5 x6 i) := by
  rw [val_main_v12_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.ofBits_def, Ideal.ofBits_one_f32, Ideal.hostDivf_def, Ideal.hostUnary_exp_def, Ideal.hostNegf_def,
    Ideal.negf_def, Ideal.addf_def, Ideal.mulf_def]
  rfl

/-- The charge column at (e, 0) is node e's charge. -/
theorem charge_at (x2 : FVec Ideal S100000x512 .f32) (x5 : FVec Ideal S512x256 .f32) (x6 : FVec Ideal S256 .f32)
    (x7 : FVec Ideal S256x1 .f32) (x8 : FVec Ideal S1 .f32) (e : Fin 100000) :
    val_main_v16 (F := Ideal) x2 x5 x6 x7 x8 (ix2 e (0 : Fin 1)) = chargeOf x2 x5 x6 x7 x8 e := by
  rw [val_main_v16_apply, val_main_v13_apply, val_main_v15_apply, val_main_v14_apply]
  have hl : ∀ k : Fin 256, lidx_main_v13 (ix2 e (0 : Fin 1)) k = ix2 e k :=
    fun k => funext fun a => match a with | ⟨0, _⟩ => rfl | ⟨1, _⟩ => rfl
  have hr : ∀ k : Fin 256, ridx_main_v13 (ix2 e (0 : Fin 1)) k = ix2 k (0 : Fin 1) :=
    fun k => funext fun a => match a with | ⟨0, _⟩ => rfl | ⟨1, _⟩ => rfl
  have hb : idx_main_v14 (idx_main_v15 (ix2 e (0 : Fin 1))) = ix1 (0 : Fin 1) :=
    funext fun a => match a with | ⟨0, _⟩ => rfl
  rw [hb]
  show (∑ k : Fin 256, val_main_v12 (F := Ideal) x2 x5 x6 (lidx_main_v13 (ix2 e (0 : Fin 1)) k)
      * x7 (ridx_main_v13 (ix2 e (0 : Fin 1)) k)) + x8 (ix1 (0 : Fin 1)) = _
  unfold chargeOf chargeRow
  refine congrArg (· + x8 (ix1 (0 : Fin 1))) (Finset.sum_congr rfl fun k _ => ?_)
  rw [hl k, hr k, act_at, hidden_at]

/-! ## The squared-distance column -/

/-- The squared-distance column at (e, 0) is the squared distance from node e to the mass centre it looks up. -/
theorem dist_at (x0 : FVec Ideal S100000x3 .f32) (x1 : FVec Ideal S128x3 .f32) (x4 : IVec S100000 32) (e : Fin 100000) :
    val_main_v19 (F := Ideal) x0 x1 x4 (ix2 e (0 : Fin 1))
      = dist2 (posOf x0 e) (centreOf x1 (lookupRow (x4 (ix1 e)))) := by
  rw [val_main_v19_apply]
  have hi : idx_main_v19 (ix2 e (0 : Fin 1)) = ix1 e := funext fun a => match a with | ⟨0, _⟩ => rfl
  rw [hi, val_main_v18_apply, val_main_cst_apply]
  have hk : ∀ k : Fin 3, idx_main_v18 (ix1 e) k = ix2 e k :=
    fun k => funext fun a => match a with | ⟨0, _⟩ => rfl | ⟨1, _⟩ => rfl
  rw [Ideal.ofBits_def, Ideal.ofBits_zero_f32, zero_add]
  unfold dist2
  refine Finset.sum_congr rfl fun k _ => ?_
  rw [hk k, val_main_v17_apply, val_main_v7_apply, gathered_at]
  rfl

/-! ## The reference's result -/

/-- Entry (b, 0) of the reference's result: the zero operand plus, over the nodes whose graph word read signed is b,
    the charge times the squared distance to the looked-up mass centre. -/
theorem value_at (x0 : FVec Ideal S100000x3 .f32) (x1 : FVec Ideal S128x3 .f32) (x2 : FVec Ideal S100000x512 .f32)
    (x4 : IVec S100000 32) (x5 : FVec Ideal S512x256 .f32) (x6 : FVec Ideal S256 .f32) (x7 : FVec Ideal S256x1 .f32)
    (x8 : FVec Ideal S1 .f32) (b : Fin 128) :
    Read.val_main_v23 (F := Ideal) x0 x1 x2 x4 x5 x6 x7 x8 (ix2 b (0 : Fin 1))
      = Cert.Moments.result x0 x1 x2 x4 x5 x6 x7 x8 (ix2 b (0 : Fin 1)) := by
  unfold val_main_v23
  rw [Cert.LibScatterRows.scatterAdd_rows_apply (N := 128) (C := 1) (E := 100000) (w := 32)
    scatter_S128x1_S100000x1_S100000x1_1_0_0_1 rfl rfl rfl rfl]
  rw [val_main_v21_apply, val_main_cst_1_apply, Ideal.ofBits_def, Ideal.ofBits_zero_f32, zero_add]
  show _ = secondMoment (chargeOf x2 x5 x6 x7 x8) (posOf x0) (wordOf x4) (centreOf x1)
    (fun i => lookupRow (wordOf x4 i)) b
  unfold secondMoment wordOf
  refine Finset.sum_congr rfl fun e _ => ?_
  have hw : val_main_v22 (F := Ideal) x4 (ix2 e (0 : Fin 1)) = x4 (ix1 e) := by
    rw [val_main_v22_apply]
    exact congrArg x4 (funext fun a => match a with | ⟨0, _⟩ => rfl)
  rw [hw, val_main_v20_apply, charge_at, dist_at]
  rfl

/-- The reference's result is the common result function. -/
theorem value_eq (x0 : FVec Ideal S100000x3 .f32) (x1 : FVec Ideal S128x3 .f32) (x2 : FVec Ideal S100000x512 .f32)
    (x4 : IVec S100000 32) (x5 : FVec Ideal S512x256 .f32) (x6 : FVec Ideal S256 .f32) (x7 : FVec Ideal S256x1 .f32)
    (x8 : FVec Ideal S1 .f32) :
    Read.val_main_v23 (F := Ideal) x0 x1 x2 x4 x5 x6 x7 x8 = Cert.Moments.result x0 x1 x2 x4 x5 x6 x7 x8 := by
  funext j
  -- an index of a 128 x 1 array is (b, 0): its second coordinate is below 1
  have h0 : (j 0).val < 128 := idx2_lt0 (n0 := 128) (n1 := 1) j
  have h1 : (j 1).val < 1 := idx2_lt1 (n0 := 128) (n1 := 1) j
  have hj : j = ix2 (n0 := 128) (n1 := 1) ⟨(j 0).val, h0⟩ ⟨0, Nat.one_pos⟩ := by
    funext a
    match a with
    | ⟨0, _⟩ => rfl
    | ⟨1, _⟩ => exact Fin.ext (by show (j 1).val = 0; omega)
  rw [hj]
  exact value_at x0 x1 x2 x4 x5 x6 x7 x8 ⟨(j 0).val, h0⟩

end Cert.ReferenceIdeal.RefValue

end
-- ==== Proof.Finite.lean ====
/-
  From the printed precondition to "every entry is a real".

  The precondition takes each float array x, forms |x| entry by entry, compares it strictly below +infinity, takes the
  conjunction of those bits over every index of the array, and conjoins the eight results.  When the whole is the set
  bit, each conjunct is, so each comparison bit is, so each |x j| lies strictly below the top of the extended reals;
  an extended real with that property is neither infinity, hence an ordinary real.
-/
import proofs.«430685_j27625229648413_2_alg».proof.Pre_finite_inputs
import proofs.«430685_j27625229648413_2_alg».proof.Proof.Gen.Pre_finite_inputs
import proofs.«430685_j27625229648413_2_alg».proof.Proof.Moments
import Idealize.ShloMosaic.Lib.ReduceAll
import Idealize.ShloMosaic.Lib.ValueIdx

noncomputable section

namespace Cert.Finite

open Cert.Pre_finite_inputs Cert.Moments Idealize.ShloMosaic Idealize.ShloMosaic.ValueIdx

/-- The rank-0 shape has exactly one index. -/
instance : Subsingleton S_.Idx := ⟨fun a b => funext fun d => d.elim0⟩

/-- An extended real whose absolute value max x (-x) is strictly below +infinity is an ordinary real. -/
theorem isReal_of_abs_lt_top (x : EReal) (h : max x (-x) < ⊤) : IsReal x := by
  induction x using EReal.rec with
  | bot => simp at h
  | coe r => exact ⟨r, rfl⟩
  | top => simp at h

/-- The comparison bit "|x| < +infinity" being set says x is an ordinary real. -/
theorem isReal_of_cmp (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  apply isReal_of_abs_lt_top
  by_contra hn
  simp [Ideal.cmp, hn] at h

/-- If the conjunction over every index of "|x| < +infinity" is the set bit, every entry of x is an ordinary real. -/
theorem allReal_of_reduce {s : Shape} {axes : List (Fin s.rank)}
    (hb : S_.BroadcastsInDim s (![] : Fin 0 → Fin s.rank)) (hr : s.ReducesTo axes S_) (hu : 0 < S_.numel)
    (x : FVec Ideal s .f32) (init : IVec S_ 1)
    (e : Host.reduce IntOp.andi
          (cmpf .olt (Host.absf x) (broadcastInDim s ![] hb (constant S_ .f32 0x7F800000#32))) init hr hu ix0 = 1#1) :
    ∀ j, IsReal (x j) := by
  intro j
  have hj := Host.reduce_andi_all _ init hr hu ix0 e j
  exact isReal_of_cmp (x j) hj

/-- The precondition conjoins, array by array, "every entry has absolute value below +infinity"; read back, each
    float array the two programs use has only ordinary reals for entries. -/
theorem isReal_of_fn (a0 : FVec Ideal S100000x3 .f32) (a1 : FVec Ideal S128x3 .f32) (a2 : FVec Ideal S100000x512 .f32)
    (a3 : FVec Ideal S100000x3 .f32) (a4 : IVec S100000 32) (a5 : FVec Ideal S512x256 .f32) (a6 : FVec Ideal S256 .f32)
    (a7 : FVec Ideal S256x1 .f32) (a8 : FVec Ideal S1 .f32)
    (h : Cert.Pre_finite_inputs.fn (F := Ideal) a0 a1 a2 a3 a4 a5 a6 a7 a8 = fun _ => 1#1) :
    (∀ j, IsReal (a0 j)) ∧ (∀ j, IsReal (a1 j)) ∧ (∀ j, IsReal (a2 j)) ∧ (∀ j, IsReal (a5 j)) ∧ (∀ j, IsReal (a6 j)) ∧
      (∀ j, IsReal (a7 j)) ∧ (∀ j, IsReal (a8 j)) := by
  have h0 := congrFun h ix0
  simp only [fn, fn_part1, fn_part2, andi, IntOp.andi_eq_one] at h0
  obtain ⟨⟨⟨⟨⟨⟨⟨e0, e1⟩, e2⟩, _⟩, e5⟩, e6⟩, e7⟩, e8⟩ := h0
  exact ⟨allReal_of_reduce _ _ _ a0 _ e0, allReal_of_reduce _ _ _ a1 _ e1, allReal_of_reduce _ _ _ a2 _ e2,
    allReal_of_reduce _ _ _ a5 _ e5, allReal_of_reduce _ _ _ a6 _ e6, allReal_of_reduce _ _ _ a7 _ e7,
    allReal_of_reduce _ _ _ a8 _ e8⟩

end Cert.Finite

end
-- ==== Proof.lean ====
/-
  The per-graph second moment of a learned charge about the graph's mass centre, computed two ways.

  Each of 100000 nodes has a position in R^3, a row of 512 features and a graph word; each of 128 graphs has a mass
  centre.  A node's charge is a two-layer network on its features (256 hidden units, x times the logistic function of
  x, then one affine form).  The reference sums, over the nodes whose graph word is b, the charge times the squared
  distance from the node's position to the mass centre of the row the node looks up (a negative word has 128 added,
  the row is clamped into the table); a word outside [0, 128) contributes to no graph.  The kernel walks the nodes in
  fifty tiles of 2000 on two cores, accumulates per core and graph the five moments charge x (1, position, squared
  norm) through a one-hot product that drops exactly the same words, and the operations after it add the two cores
  and combine the moments with the mass centre: |p - c|^2 = |p|^2 - 2 c.p + |c|^2.

  Over the extended reals the two agree when every float input is finite, which is the precondition: the expansion
  distributes the charge over a difference, a law that fails at infinities, so the proof reads the precondition back
  as "every entry is a real" and does the algebra in the reals.  A change of float format is the identity here, the
  kernel's logistic operation is the reference's 1 / (1 + exp (-x)), and a sum does not depend on how it is tiled.

  The word-level kernel and its idealization run, terminate and keep their arguments by their frame certificates;
  the reference by its run read back; the idealization rewrote no operation.
-/
import proofs.«430685_j27625229648413_2_alg».proof.Defs
import proofs.«430685_j27625229648413_2_alg».proof.Proof.Gen.Kernel
import proofs.«430685_j27625229648413_2_alg».proof.Proof.Gen.Kernel.Skeleton
import proofs.«430685_j27625229648413_2_alg».proof.Proof.Gen.Kernel.Launch
import proofs.«430685_j27625229648413_2_alg».proof.Proof.Gen.Kernel.Points
import proofs.«430685_j27625229648413_2_alg».proof.Proof.Gen.Kernel.Frame
import proofs.«430685_j27625229648413_2_alg».proof.Proof.Gen.KernelIdeal
import proofs.«430685_j27625229648413_2_alg».proof.Proof.Gen.KernelIdeal.Skeleton
import proofs.«430685_j27625229648413_2_alg».proof.Proof.Gen.KernelIdeal.Launch
import proofs.«430685_j27625229648413_2_alg».proof.Proof.Gen.KernelIdeal.Points
import proofs.«430685_j27625229648413_2_alg».proof.Proof.Gen.KernelIdeal.Frame
import proofs.«430685_j27625229648413_2_alg».proof.Proof.Gen.ReferenceIdeal
import proofs.«430685_j27625229648413_2_alg».proof.Proof.Gen.ReferenceIdeal.Run
import proofs.«430685_j27625229648413_2_alg».proof.Proof.Gen.ReferenceIdeal.Read
import proofs.«430685_j27625229648413_2_alg».proof.Proof.Gen.Pre_finite_inputs
import proofs.«430685_j27625229648413_2_alg».proof.Proof.KernelValue
import proofs.«430685_j27625229648413_2_alg».proof.Proof.RefValue
import proofs.«430685_j27625229648413_2_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with entry (b, 0) of their result at graph b's second moment of the charge about its
    mass centre, of argument arrays that agree. -/
theorem algebraic : Cert.algebraic_KernelIdeal_ReferenceIdeal := by
  intro m ρ m' ρ' hpre hagree
  have hre := fun c => Cert.Finite.isReal_of_fn _ _ _ _ _ _ _ _ _ (hpre c)
  refine ⟨fun c => Cert.Moments.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Result.run m ρ (fun c => (hre c).1) (fun c => (hre c).2.1) (fun c => (hre c).2.2.1)
      (fun c => (hre c).2.2.2.1) (fun c => (hre c).2.2.2.2.1) (fun c => (hre c).2.2.2.2.2.1) (fun c => (hre c).2.2.2.2.2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.value_eq, (hagree c).1, (hagree c).2.1,
    (hagree c).2.2.1, (hagree c).2.2.2.2.1, (hagree c).2.2.2.2.2.1, (hagree c).2.2.2.2.2.2.1, (hagree c).2.2.2.2.2.2.2.1,
    (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
